-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072 : Shape := ⟨1, ![131072]⟩
abbrev S2x262144 : Shape := ⟨2, ![2, 262144]⟩
abbrev S262144 : Shape := ⟨1, ![262144]⟩
abbrev S2x65536 : Shape := ⟨2, ![2, 65536]⟩
abbrev S256x768 : Shape := ⟨2, ![256, 768]⟩
abbrev S256x512 : Shape := ⟨2, ![256, 512]⟩
abbrev S256x256 : Shape := ⟨2, ![256, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x768 : S_.BroadcastsInDim S256x768 (![] : Fin 0 → Fin S256x768.rank)
  reducesTo_S256x768_S_d0_1 : S256x768.ReducesTo [0, 1] S_
  bcast_S_S256x512 : S_.BroadcastsInDim S256x512 (![] : Fin 0 → Fin S256x512.rank)
  reducesTo_S256x512_S_d0_1 : S256x512.ReducesTo [0, 1] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg8 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg8
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  main_v23

def fn {F : FTy → Type} [FloatOps F] (main_arg0 : FVec F S131072x256 .f32) (main_arg1 : IVec S131072 32) (main_arg2 : IVec S2x262144 32) (main_arg3 : IVec S262144 32) (main_arg4 : IVec S2x65536 32) (main_arg5 : FVec F S256x768 .f32) (main_arg6 : FVec F S256x512 .f32) (main_arg7 : FVec F S256x256 .f32) (main_arg8 : FVec F S256x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256x768 .f32 := Host.absf main_arg5
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S256x512 .f32 := Host.absf main_arg6
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256x256 .f32 := Host.absf main_arg7
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg8 main_v13 main_v16
-- ==== Kernel.lean ====
abbrev S131072x256 : Shape := ⟨2, ![131072, 256]⟩
abbrev S131072 : Shape := ⟨1, ![131072]⟩
abbrev S2x262144 : Shape := ⟨2, ![2, 262144]⟩
abbrev S262144 : Shape := ⟨1, ![262144]⟩
abbrev S2x65536 : Shape := ⟨2, ![2, 65536]⟩
abbrev S256x768 : Shape := ⟨2, ![256, 768]⟩
abbrev S256x512 : Shape := ⟨2, ![256, 512]⟩
abbrev S256x256 : Shape := ⟨2, ![256, 256]⟩
abbrev S1x262144 : Shape := ⟨2, ![1, 262144]⟩
abbrev S1x65536 : Shape := ⟨2, ![1, 65536]⟩
abbrev S65536 : Shape := ⟨1, ![65536]⟩
abbrev S_ : Shape := ⟨0, ![]⟩
abbrev S262144x1 : Shape := ⟨2, ![262144, 1]⟩
abbrev S262144x256 : Shape := ⟨2, ![262144, 256]⟩
abbrev S65536x256 : Shape := ⟨2, ![65536, 256]⟩
abbrev S16384x256 : Shape := ⟨2, ![16384, 256]⟩
abbrev S131072x1 : Shape := ⟨2, ![131072, 1]⟩
abbrev S16384x1 : Shape := ⟨2, ![16384, 1]⟩
abbrev S65536x1 : Shape := ⟨2, ![65536, 1]⟩
abbrev S4096x256 : Shape := ⟨2, ![4096, 256]⟩

abbrev nBuf : Space → Nat
  | .hbm => 129
  | .vmem => 27
  | .smem => 0
  | _ => 0

abbrev hbmTy0_0 (i : Nat) : BufTy := match i % 128 with
  | 0 => ⟨S131072x256, .f32⟩
  | 1 => ⟨S131072, .i32⟩
  | 2 => ⟨S2x262144, .i32⟩
  | 3 => ⟨S262144, .i32⟩
  | 4 => ⟨S2x65536, .i32⟩
  | 5 => ⟨S256x768, .f32⟩
  | 6 => ⟨S256x512, .f32⟩
  | 7 => ⟨S256x256, .f32⟩
  | 8 => ⟨S256x256, .f32⟩
  | 9 => ⟨S1x262144, .i32⟩
  | 10 => ⟨S262144, .i32⟩
  | 11 => ⟨S1x262144, .i32⟩
  | 12 => ⟨S262144, .i32⟩
  | 13 => ⟨S1x65536, .i32⟩
  | 14 => ⟨S65536, .i32⟩
  | 15 => ⟨S1x65536, .i32⟩
  | 16 => ⟨S65536, .i32⟩
  | 17 => ⟨S_, .i32⟩
  | 18 => ⟨S262144, .i32⟩
  | 19 => ⟨S262144, .i1⟩
  | 20 => ⟨S_, .i32⟩
  | 21 => ⟨S262144, .i32⟩
  | 22 => ⟨S262144, .i32⟩
  | 23 => ⟨S262144, .i32⟩
  | 24 => ⟨S262144x1, .i32⟩
  | 25 => ⟨S262144x256, .f32⟩
  | 26 => ⟨S_, .f32⟩
  | 27 => ⟨S65536x256, .f32⟩
  | 28 => ⟨S262144x1, .i32⟩
  | 29 => ⟨S65536x256, .f32⟩
  | 30 => ⟨S_, .f32⟩
  | 31 => ⟨S16384x256, .f32⟩
  | 32 => ⟨S131072x1, .i32⟩
  | 33 => ⟨S16384x256, .f32⟩
  | 34 => ⟨S_, .f32⟩
  | 35 => ⟨S131072x1, .f32⟩
  | 36 => ⟨S_, .f32⟩
  | 37 => ⟨S16384x1, .f32⟩
  | 38 => ⟨S131072x1, .i32⟩
  | 39 => ⟨S16384x1, .f32⟩
  | 40 => ⟨S_, .f32⟩
  | 41 => ⟨S16384x1, .f32⟩
  | 42 => ⟨S16384x1, .f32⟩
  | 43 => ⟨S16384x256, .f32⟩
  | 44 => ⟨S16384x256, .f32⟩
  | 45 => ⟨S_, .i32⟩
  | 46 => ⟨S65536, .i32⟩
  | 47 => ⟨S65536, .i1⟩
  | 48 => ⟨S_, .i32⟩
  | 49 => ⟨S65536, .i32⟩
  | 50 => ⟨S65536, .i32⟩
  | 51 => ⟨S65536, .i32⟩
  | 52 => ⟨S65536x1, .i32⟩
  | 53 => ⟨S65536x256, .f32⟩
  | 54 => ⟨S_, .f32⟩
  | 55 => ⟨S131072x256, .f32⟩
  | 56 => ⟨S262144x1, .i32⟩
  | 57 => ⟨S131072x256, .f32⟩
  | 58 => ⟨S_, .i32⟩
  | 59 => ⟨S262144, .i32⟩
  | 60 => ⟨S262144, .i1⟩
  | 61 => ⟨S_, .i32⟩
  | 62 => ⟨S262144, .i32⟩
  | 63 => ⟨S262144, .i32⟩
  | 64 => ⟨S262144, .i32⟩
  | 65 => ⟨S262144x1, .i32⟩
  | 66 => ⟨S262144x256, .f32⟩
  | 67 => ⟨S_, .f32⟩
  | 68 => ⟨S131072x256, .f32⟩
  | 69 => ⟨S262144x1, .i32⟩
  | 70 => ⟨S131072x256, .f32⟩
  | 71 => ⟨S_, .i32⟩
  | 72 => ⟨S262144, .i32⟩
  | 73 => ⟨S262144, .i1⟩
  | 74 => ⟨S_, .i32⟩
  | 75 => ⟨S262144, .i32⟩
  | 76 => ⟨S262144, .i32⟩
  | 77 => ⟨S262144, .i32⟩
  | 78 => ⟨S262144x1, .i32⟩
  | 79 => ⟨S262144x256, .f32⟩
  | 80 => ⟨S_, .f32⟩
  | 81 => ⟨S131072x256, .f32⟩
  | 82 => ⟨S262144x1, .i32⟩
  | 83 => ⟨S131072x256, .f32⟩
  | 84 => ⟨S_, .f32⟩
  | 85 => ⟨S16384x256, .f32⟩
  | 86 => ⟨S65536x1, .i32⟩
  | 87 => ⟨S16384x256, .f32⟩
  | 88 => ⟨S_, .f32⟩
  | 89 => ⟨S16384x256, .f32⟩
  | 90 => ⟨S65536x1, .i32⟩
  | 91 => ⟨S16384x256, .f32⟩
  | 92 => ⟨S256x256, .f32⟩
  | 93 => ⟨S256x256, .bf16⟩
  | 94 => ⟨S256x256, .f32⟩
  | 95 => ⟨S256x256, .f32⟩
  | 96 => ⟨S256x256, .bf16⟩
  | 97 => ⟨S256x256, .f32⟩
  | 98 => ⟨S256x256, .f32⟩
  | 99 => ⟨S256x256, .bf16⟩
  | 100 => ⟨S256x256, .f32⟩
  | 101 => ⟨S256x256, .bf16⟩
  | 102 => ⟨S256x256, .f32⟩
  | 103 => ⟨S256x256, .f32⟩
  | 104 => ⟨S256x256, .bf16⟩
  | 105 => ⟨S256x256, .f32⟩
  | 106 => ⟨S256x256, .f32⟩
  | 107 => ⟨S256x256, .bf16⟩
  | 108 => ⟨S256x256, .f32⟩
  | 109 => ⟨S256x256, .f32⟩
  | 110 => ⟨S256x256, .bf16⟩
  | 111 => ⟨S16384x256, .bf16⟩
  | 112 => ⟨S16384x256, .bf16⟩
  | 113 => ⟨S16384x256, .bf16⟩
  | 114 => ⟨S16384x256, .f32⟩
  | 115 => ⟨S_, .i32⟩
  | 116 => ⟨S131072, .i32⟩
  | 117 => ⟨S131072, .i1⟩
  | 118 => ⟨S_, .i32⟩
  | 119 => ⟨S131072, .i32⟩
  | 120 => ⟨S131072, .i32⟩
  | 121 => ⟨S131072, .i32⟩
  | 122 => ⟨S131072x1, .i32⟩
  | 123 => ⟨S131072x256, .f32⟩
  | 124 => ⟨S131072x256, .bf16⟩
  | 125 => ⟨S131072x256, .bf16⟩
  | 126 => ⟨S131072x256, .bf16⟩
  | 127 => ⟨S131072x256, .bf16⟩
  | _ => ⟨S131072x256, .f32⟩

abbrev hbmTy0_1 (i : Nat) : BufTy := match i % 128 with
  | 0 => ⟨S131072x256, .f32⟩
  | _ => ⟨S131072x256, .f32⟩

abbrev hbmTy (i : Nat) : BufTy := match i / 128 with
  | 0 => hbmTy0_0 i
  | 1 => hbmTy0_1 i
  | _ => ⟨S131072x256, .f32⟩

abbrev bufTy : (tb : Table) → Fin (tcTables nBuf tb) → BufTy
  | .hbm, ⟨i, _⟩ => hbmTy i
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S4096x256, .f32⟩
  | .local _ .vmem, ⟨10, _⟩ => ⟨S4096x256, .f32⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S4096x256, .bf16⟩
  | .local _ .vmem, ⟨17, _⟩ => ⟨S4096x256, .bf16⟩
  | .local _ .vmem, ⟨18, _⟩ => ⟨S4096x256, .bf16⟩
  | .local _ .vmem, ⟨19, _⟩ => ⟨S4096x256, .f32⟩
  | .local _ .vmem, ⟨20, _⟩ => ⟨S4096x256, .f32⟩
  | .local _ .vmem, ⟨21, _⟩ => ⟨S256x256, .bf16⟩
  | .local _ .vmem, ⟨22, _⟩ => ⟨S256x256, .bf16⟩
  | .local _ .vmem, ⟨23, _⟩ => ⟨S256x256, .bf16⟩
  | .local _ .vmem, ⟨24, _⟩ => ⟨S256x256, .bf16⟩
  | .local _ .vmem, ⟨25, _⟩ => ⟨S4096x256, .f32⟩
  | .local _ .vmem, ⟨26, _⟩ => ⟨S4096x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_c_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_11 : Ref sig .tc := ⟨.hbm, 71, rfl⟩
abbrev main_v49 : Ref sig .tc := ⟨.hbm, 72, rfl⟩
abbrev main_v50 : Ref sig .tc := ⟨.hbm, 73, rfl⟩
abbrev main_c_12 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_13 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_14 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_15 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_c_16 : Ref sig .tc := ⟨.hbm, 115, rfl⟩
abbrev main_v88 : Ref sig .tc := ⟨.hbm, 116, rfl⟩
abbrev main_v89 : Ref sig .tc := ⟨.hbm, 117, rfl⟩
abbrev main_c_17 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg9_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem9_1 : DmaSem sig := 26

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x256 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4096x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S262144 : S_.BroadcastsInDim S262144 (![] : Fin 0 → Fin S262144.rank)
  bcast_S262144_S262144x1_0 : S262144.BroadcastsInDim S262144x1 (![0] : Fin 1 → Fin S262144x1.rank)
  bcast_S_S65536x256 : S_.BroadcastsInDim S65536x256 (![] : Fin 0 → Fin S65536x256.rank)
  bcast_S_S16384x256 : S_.BroadcastsInDim S16384x256 (![] : Fin 0 → Fin S16384x256.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  bcast_S_S65536 : S_.BroadcastsInDim S65536 (![] : Fin 0 → Fin S65536.rank)
  bcast_S65536_S65536x1_0 : S65536.BroadcastsInDim S65536x1 (![0] : Fin 1 → Fin S65536x1.rank)
  bcast_S_S131072x256 : S_.BroadcastsInDim S131072x256 (![] : Fin 0 → Fin S131072x256.rank)
  transposes_S256x256_S256x256_1_0 : S256x256.Transposes [1, 0] S256x256
  bitsLt_bf16_f32 : FTy.bits .bf16 < FTy.bits .f32
  slices_S256x512_S256x256_0_0 : S256x512.Slices ![0, 0] S256x256
  slices_S256x512_S256x256_0_256 : S256x512.Slices ![0, 256] S256x256
  slices_S256x768_S256x256_0_0 : S256x768.Slices ![0, 0] S256x256
  slices_S256x768_S256x256_0_256 : S256x768.Slices ![0, 256] S256x256
  slices_S256x768_S256x256_0_512 : S256x768.Slices ![0, 512] S256x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S131072 : S_.BroadcastsInDim S131072 (![] : Fin 0 → Fin S131072.rank)
  gather_S131072x256_S262144x1_S262144x256_1_0_n_n_0_1_1256_wf : GatherDims.WF S131072x256 S262144x1 S262144x256 [1] [0] [] [0] [] 1 ![1, 256]
  scatter_S65536x256_S262144x1_S262144x256_1_0_0_1_wf : ScatterDims.WF S65536x256 S262144x1 S262144x256 [1] [0] [0] 1
  scatter_S16384x256_S131072x1_S131072x256_1_0_0_1_wf : ScatterDims.WF S16384x256 S131072x1 S131072x256 [1] [0] [0] 1
  scatter_S16384x1_S131072x1_S131072x1_1_0_0_1_wf : ScatterDims.WF S16384x1 S131072x1 S131072x1 [1] [0] [0] 1
  gather_S16384x256_S65536x1_S65536x256_1_0_n_n_0_1_1256_wf : GatherDims.WF S16384x256 S65536x1 S65536x256 [1] [0] [] [0] [] 1 ![1, 256]
  scatter_S131072x256_S262144x1_S262144x256_1_0_0_1_wf : ScatterDims.WF S131072x256 S262144x1 S262144x256 [1] [0] [0] 1
  gather_S65536x256_S262144x1_S262144x256_1_0_n_n_0_1_1256_wf : GatherDims.WF S65536x256 S262144x1 S262144x256 [1] [0] [] [0] [] 1 ![1, 256]
  scatter_S16384x256_S65536x1_S65536x256_1_0_0_1_wf : ScatterDims.WF S16384x256 S65536x1 S65536x256 [1] [0] [0] 1
  dot_S4096x256_S256x256_S4096x256_1_0_0_1_n_n_wf : DotDims.WF S4096x256 S256x256 S4096x256 [1] [0] [0] [1] [] []
  gather_S16384x256_S131072x1_S131072x256_1_0_n_n_0_1_1256_wf : GatherDims.WF S16384x256 S131072x1 S131072x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S16384x256.size a
  hwx0_0 : ∀ i : grid0.Coords, EltTy.bits .bf16 = 32 ∨ (Rect.block (s := S16384x256) S4096x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S16384x256.size a
  hwx0_1 : ∀ i : grid0.Coords, EltTy.bits .bf16 = 32 ∨ (Rect.block (s := S16384x256) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S16384x256.size a
  hwx0_2 : ∀ i : grid0.Coords, EltTy.bits .bf16 = 32 ∨ (Rect.block (s := S16384x256) S4096x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x256.size a ≤ S16384x256.size a
  hwx0_6 : ∀ i : grid0.Coords, EltTy.bits .f32 = 32 ∨ (Rect.block (s := S16384x256) S4096x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S131072x256.size a
  hwx1_0 : ∀ i : grid1.Coords, EltTy.bits .bf16 = 32 ∨ (Rect.block (s := S131072x256) S4096x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S131072x256.size a
  hwx1_1 : ∀ i : grid1.Coords, EltTy.bits .bf16 = 32 ∨ (Rect.block (s := S131072x256) S4096x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x256.size a ≤ S131072x256.size a
  hwx1_2 : ∀ i : grid1.Coords, EltTy.bits .bf16 = 32 ∨ (Rect.block (s := S131072x256) S4096x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S131072x256.size a
  hwx1_3 : ∀ i : grid1.Coords, EltTy.bits .bf16 = 32 ∨ (Rect.block (s := S131072x256) S4096x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x256.size a ≤ S131072x256.size a
  hwx1_4 : ∀ i : grid1.Coords, EltTy.bits .f32 = 32 ∨ (Rect.block (s := S131072x256) S4096x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .bf16 = 32 ∨ (Rect.block (s := S256x256) S256x256.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .bf16 = 32 ∨ (Rect.block (s := S256x256) S256x256.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x256.size a ≤ S256x256.size a
  hwx1_8 : ∀ i : grid1.Coords, EltTy.bits .bf16 = 32 ∨ (Rect.block (s := S256x256) S256x256.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4096x256.size a ≤ S131072x256.size a
  hwx1_9 : ∀ i : grid1.Coords, EltTy.bits .f32 = 32 ∨ (Rect.block (s := S131072x256) S4096x256.size (cc1_transform_9 i) (hinb1_9 i)).WholeWords (EltTy.packing .f32)

variable [Facts₀]

def gather_S131072x256_S262144x1_S262144x256_1_0_n_n_0_1_1256 : GatherDims S131072x256 S262144x1 S262144x256 where
  offsetDims := [1]
  collapsedSliceDims := [0]
  operandBatchingDims := []
  startIndicesBatchingDims := []
  startIndexMap := [0]
  indexVectorDim := 1
  sliceSizes := ![1, 256]
  wf := gather_S131072x256_S262144x1_S262144x256_1_0_n_n_0_1_1256_wf
def scatter_S65536x256_S262144x1_S262144x256_1_0_0_1 : ScatterDims S65536x256 S262144x1 S262144x256 where
  updateWindowDims := [1]
  insertedWindowDims := [0]
  scatterDimsToOperandDims := [0]
  indexVectorDim := 1
  wf := scatter_S65536x256_S262144x1_S262144x256_1_0_0_1_wf
def scatter_S16384x256_S131072x1_S131072x256_1_0_0_1 : ScatterDims S16384x256 S131072x1 S131072x256 where
  updateWindowDims := [1]
  insertedWindowDims := [0]
  scatterDimsToOperandDims := [0]
  indexVectorDim := 1
  wf := scatter_S16384x256_S131072x1_S131072x256_1_0_0_1_wf
def scatter_S16384x1_S131072x1_S131072x1_1_0_0_1 : ScatterDims S16384x1 S131072x1 S131072x1 where
  updateWindowDims := [1]
  insertedWindowDims := [0]
  scatterDimsToOperandDims := [0]
  indexVectorDim := 1
  wf := scatter_S16384x1_S131072x1_S131072x1_1_0_0_1_wf
def gather_S16384x256_S65536x1_S65536x256_1_0_n_n_0_1_1256 : GatherDims S16384x256 S65536x1 S65536x256 where
  offsetDims := [1]
  collapsedSliceDims := [0]
  operandBatchingDims := []
  startIndicesBatchingDims := []
  startIndexMap := [0]
  indexVectorDim := 1
  sliceSizes := ![1, 256]
  wf := gather_S16384x256_S65536x1_S65536x256_1_0_n_n_0_1_1256_wf
def scatter_S131072x256_S262144x1_S262144x256_1_0_0_1 : ScatterDims S131072x256 S262144x1 S262144x256 where
  updateWindowDims := [1]
  insertedWindowDims := [0]
  scatterDimsToOperandDims := [0]
  indexVectorDim := 1
  wf := scatter_S131072x256_S262144x1_S262144x256_1_0_0_1_wf
def gather_S65536x256_S262144x1_S262144x256_1_0_n_n_0_1_1256 : GatherDims S65536x256 S262144x1 S262144x256 where
  offsetDims := [1]
  collapsedSliceDims := [0]
  operandBatchingDims := []
  startIndicesBatchingDims := []
  startIndexMap := [0]
  indexVectorDim := 1
  sliceSizes := ![1, 256]
  wf := gather_S65536x256_S262144x1_S262144x256_1_0_n_n_0_1_1256_wf
def scatter_S16384x256_S65536x1_S65536x256_1_0_0_1 : ScatterDims S16384x256 S65536x1 S65536x256 where
  updateWindowDims := [1]
  insertedWindowDims := [0]
  scatterDimsToOperandDims := [0]
  indexVectorDim := 1
  wf := scatter_S16384x256_S65536x1_S65536x256_1_0_0_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def gather_S16384x256_S131072x1_S131072x256_1_0_n_n_0_1_1256 : GatherDims S16384x256 S131072x1 S131072x256 where
  offsetDims := [1]
  collapsedSliceDims := [0]
  operandBatchingDims := []
  startIndicesBatchingDims := []
  startIndexMap := [0]
  indexVectorDim := 1
  sliceSizes := ![1, 256]
  wf := gather_S16384x256_S131072x1_S131072x256_1_0_n_n_0_1_1256_wf

abbrev win0_0 : Pipeline.Window sig grid0 :=
  Pipeline.Window.ofSpec (Memref.whole main_v84) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v85) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v86) S4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v66) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v69) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v72) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v87) S4096x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v95) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v96) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v97) S4096x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v98) S4096x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v94) S4096x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v74) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v77) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v80) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v83) S256x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v99) S4096x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S131072x256 : Shape := ⟨2, ![131072, 256]⟩
abbrev S131072 : Shape := ⟨1, ![131072]⟩
abbrev S2x262144 : Shape := ⟨2, ![2, 262144]⟩
abbrev S262144 : Shape := ⟨1, ![262144]⟩
abbrev S2x65536 : Shape := ⟨2, ![2, 65536]⟩
abbrev S256x768 : Shape := ⟨2, ![256, 768]⟩
abbrev S256x512 : Shape := ⟨2, ![256, 512]⟩
abbrev S256x256 : Shape := ⟨2, ![256, 256]⟩
abbrev S1x262144 : Shape := ⟨2, ![1, 262144]⟩
abbrev S_ : Shape := ⟨0, ![]⟩
abbrev S262144x1 : Shape := ⟨2, ![262144, 1]⟩
abbrev S262144x256 : Shape := ⟨2, ![262144, 256]⟩
abbrev S65536x256 : Shape := ⟨2, ![65536, 256]⟩
abbrev S16384x256 : Shape := ⟨2, ![16384, 256]⟩
abbrev S131072x1 : Shape := ⟨2, ![131072, 1]⟩
abbrev S16384x1 : Shape := ⟨2, ![16384, 1]⟩
abbrev S1x65536 : Shape := ⟨2, ![1, 65536]⟩
abbrev S65536 : Shape := ⟨1, ![65536]⟩
abbrev S65536x1 : Shape := ⟨2, ![65536, 1]⟩
abbrev S131072x768 : Shape := ⟨2, ![131072, 768]⟩
abbrev S16384x512 : Shape := ⟨2, ![16384, 512]⟩
abbrev S512x256 : Shape := ⟨2, ![512, 256]⟩
abbrev S768x256 : Shape := ⟨2, ![768, 256]⟩

abbrev nBuf : Space → Nat
  | .hbm => 116
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072, .i32⟩
  | .hbm, ⟨2, _⟩ => ⟨S2x262144, .i32⟩
  | .hbm, ⟨3, _⟩ => ⟨S262144, .i32⟩
  | .hbm, ⟨4, _⟩ => ⟨S2x65536, .i32⟩
  | .hbm, ⟨5, _⟩ => ⟨S256x768, .f32⟩
  | .hbm, ⟨6, _⟩ => ⟨S256x512, .f32⟩
  | .hbm, ⟨7, _⟩ => ⟨S256x256, .f32⟩
  | .hbm, ⟨8, _⟩ => ⟨S256x256, .f32⟩
  | .hbm, ⟨9, _⟩ => ⟨S1x262144, .i32⟩
  | .hbm, ⟨10, _⟩ => ⟨S262144, .i32⟩
  | .hbm, ⟨11, _⟩ => ⟨S1x262144, .i32⟩
  | .hbm, ⟨12, _⟩ => ⟨S262144, .i32⟩
  | .hbm, ⟨13, _⟩ => ⟨S_, .i32⟩
  | .hbm, ⟨14, _⟩ => ⟨S262144, .i32⟩
  | .hbm, ⟨15, _⟩ => ⟨S262144, .i1⟩
  | .hbm, ⟨16, _⟩ => ⟨S_, .i32⟩
  | .hbm, ⟨17, _⟩ => ⟨S262144, .i32⟩
  | .hbm, ⟨18, _⟩ => ⟨S262144, .i32⟩
  | .hbm, ⟨19, _⟩ => ⟨S262144, .i32⟩
  | .hbm, ⟨20, _⟩ => ⟨S262144x1, .i32⟩
  | .hbm, ⟨21, _⟩ => ⟨S262144x256, .f32⟩
  | .hbm, ⟨22, _⟩ => ⟨S_, .f32⟩
  | .hbm, ⟨23, _⟩ => ⟨S65536x256, .f32⟩
  | .hbm, ⟨24, _⟩ => ⟨S262144x1, .i32⟩
  | .hbm, ⟨25, _⟩ => ⟨S65536x256, .f32⟩
  | .hbm, ⟨26, _⟩ => ⟨S_, .f32⟩
  | .hbm, ⟨27, _⟩ => ⟨S16384x256, .f32⟩
  | .hbm, ⟨28, _⟩ => ⟨S131072x1, .i32⟩
  | .hbm, ⟨29, _⟩ => ⟨S16384x256, .f32⟩
  | .hbm, ⟨30, _⟩ => ⟨S_, .f32⟩
  | .hbm, ⟨31, _⟩ => ⟨S131072x1, .f32⟩
  | .hbm, ⟨32, _⟩ => ⟨S_, .f32⟩
  | .hbm, ⟨33, _⟩ => ⟨S16384x1, .f32⟩
  | .hbm, ⟨34, _⟩ => ⟨S131072x1, .i32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x256, .f32⟩
  | .hbm, ⟨40, _⟩ => ⟨S16384x256, .f32⟩
  | .hbm, ⟨41, _⟩ => ⟨S1x65536, .i32⟩
  | .hbm, ⟨42, _⟩ => ⟨S65536, .i32⟩
  | .hbm, ⟨43, _⟩ => ⟨S_, .i32⟩
  | .hbm, ⟨44, _⟩ => ⟨S65536, .i32⟩
  | .hbm, ⟨45, _⟩ => ⟨S65536, .i1⟩
  | .hbm, ⟨46, _⟩ => ⟨S_, .i32⟩
  | .hbm, ⟨47, _⟩ => ⟨S65536, .i32⟩
  | .hbm, ⟨48, _⟩ => ⟨S65536, .i32⟩
  | .hbm, ⟨49, _⟩ => ⟨S65536, .i32⟩
  | .hbm, ⟨50, _⟩ => ⟨S65536x1, .i32⟩
  | .hbm, ⟨51, _⟩ => ⟨S65536x256, .f32⟩
  | .hbm, ⟨52, _⟩ => ⟨S_, .f32⟩
  | .hbm, ⟨53, _⟩ => ⟨S131072x256, .f32⟩
  | .hbm, ⟨54, _⟩ => ⟨S262144x1, .i32⟩
  | .hbm, ⟨55, _⟩ => ⟨S131072x256, .f32⟩
  | .hbm, ⟨56, _⟩ => ⟨S_, .i32⟩
  | .hbm, ⟨57, _⟩ => ⟨S262144, .i32⟩
  | .hbm, ⟨58, _⟩ => ⟨S262144, .i1⟩
  | .hbm, ⟨59, _⟩ => ⟨S_, .i32⟩
  | .hbm, ⟨60, _⟩ => ⟨S262144, .i32⟩
  | .hbm, ⟨61, _⟩ => ⟨S262144, .i32⟩
  | .hbm, ⟨62, _⟩ => ⟨S262144, .i32⟩
  | .hbm, ⟨63, _⟩ => ⟨S262144x1, .i32⟩
  | .hbm, ⟨64, _⟩ => ⟨S262144x256, .f32⟩
  | .hbm, ⟨65, _⟩ => ⟨S_, .f32⟩
  | .hbm, ⟨66, _⟩ => ⟨S131072x256, .f32⟩
  | .hbm, ⟨67, _⟩ => ⟨S262144x1, .i32⟩
  | .hbm, ⟨68, _⟩ => ⟨S131072x256, .f32⟩
  | .hbm, ⟨69, _⟩ => ⟨S_, .i32⟩
  | .hbm, ⟨70, _⟩ => ⟨S262144, .i32⟩
  | .hbm, ⟨71, _⟩ => ⟨S262144, .i1⟩
  | .hbm, ⟨72, _⟩ => ⟨S_, .i32⟩
  | .hbm, ⟨73, _⟩ => ⟨S262144, .i32⟩
  | .hbm, ⟨74, _⟩ => ⟨S262144, .i32⟩
  | .hbm, ⟨75, _⟩ => ⟨S262144, .i32⟩
  | .hbm, ⟨76, _⟩ => ⟨S262144x1, .i32⟩
  | .hbm, ⟨77, _⟩ => ⟨S262144x256, .f32⟩
  | .hbm, ⟨78, _⟩ => ⟨S_, .f32⟩
  | .hbm, ⟨79, _⟩ => ⟨S131072x256, .f32⟩
  | .hbm, ⟨80, _⟩ => ⟨S262144x1, .i32⟩
  | .hbm, ⟨81, _⟩ => ⟨S131072x256, .f32⟩
  | .hbm, ⟨82, _⟩ => ⟨S131072x768, .f32⟩
  | .hbm, ⟨83, _⟩ => ⟨S1x65536, .i32⟩
  | .hbm, ⟨84, _⟩ => ⟨S65536, .i32⟩
  | .hbm, ⟨85, _⟩ => ⟨S_, .f32⟩
  | .hbm, ⟨86, _⟩ => ⟨S16384x256, .f32⟩
  | .hbm, ⟨87, _⟩ => ⟨S65536x1, .i32⟩
  | .hbm, ⟨88, _⟩ => ⟨S16384x256, .f32⟩
  | .hbm, ⟨89, _⟩ => ⟨S1x65536, .i32⟩
  | .hbm, ⟨90, _⟩ => ⟨S65536, .i32⟩
  | .hbm, ⟨91, _⟩ => ⟨S_, .f32⟩
  | .hbm, ⟨92, _⟩ => ⟨S16384x256, .f32⟩
  | .hbm, ⟨93, _⟩ => ⟨S65536x1, .i32⟩
  | .hbm, ⟨94, _⟩ => ⟨S16384x256, .f32⟩
  | .hbm, ⟨95, _⟩ => ⟨S16384x512, .f32⟩
  | .hbm, ⟨96, _⟩ => ⟨S256x256, .f32⟩
  | .hbm, ⟨97, _⟩ => ⟨S16384x256, .f32⟩
  | .hbm, ⟨98, _⟩ => ⟨S512x256, .f32⟩
  | .hbm, ⟨99, _⟩ => ⟨S16384x256, .f32⟩
  | .hbm, ⟨100, _⟩ => ⟨S16384x256, .f32⟩
  | .hbm, ⟨101, _⟩ => ⟨S256x256, .f32⟩
  | .hbm, ⟨102, _⟩ => ⟨S131072x256, .f32⟩
  | .hbm, ⟨103, _⟩ => ⟨S768x256, .f32⟩
  | .hbm, ⟨104, _⟩ => ⟨S131072x256, .f32⟩
  | .hbm, ⟨105, _⟩ => ⟨S131072x256, .f32⟩
  | .hbm, ⟨106, _⟩ => ⟨S_, .i32⟩
  | .hbm, ⟨107, _⟩ => ⟨S131072, .i32⟩
  | .hbm, ⟨108, _⟩ => ⟨S131072, .i1⟩
  | .hbm, ⟨109, _⟩ => ⟨S_, .i32⟩
  | .hbm, ⟨110, _⟩ => ⟨S131072, .i32⟩
  | .hbm, ⟨111, _⟩ => ⟨S131072, .i32⟩
  | .hbm, ⟨112, _⟩ => ⟨S131072, .i32⟩
  | .hbm, ⟨113, _⟩ => ⟨S131072x1, .i32⟩
  | .hbm, ⟨114, _⟩ => ⟨S131072x256, .f32⟩
  | .hbm, ⟨115, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_c_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_11 : Ref sig .tc := ⟨.hbm, 69, rfl⟩
abbrev main_v47 : Ref sig .tc := ⟨.hbm, 70, rfl⟩
abbrev main_v48 : Ref sig .tc := ⟨.hbm, 71, rfl⟩
abbrev main_c_12 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_13 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_14 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_15 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_16 : Ref sig .tc := ⟨.hbm, 106, rfl⟩
abbrev main_v79 : Ref sig .tc := ⟨.hbm, 107, rfl⟩
abbrev main_v80 : Ref sig .tc := ⟨.hbm, 108, rfl⟩
abbrev main_c_17 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  bcast_S_S65536x256 : S_.BroadcastsInDim S65536x256 (![] : Fin 0 → Fin S65536x256.rank)
  bcast_S_S16384x256 : S_.BroadcastsInDim S16384x256 (![] : Fin 0 → Fin S16384x256.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  slices_S2x65536_S1x65536_0_0 : S2x65536.Slices ![0, 0] S1x65536
  shapeCasts_S1x65536_S65536 : S1x65536.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  bcast_S_S131072x256 : S_.BroadcastsInDim S131072x256 (![] : Fin 0 → Fin S131072x256.rank)
  concatenates_S131072x256_S131072x256_S131072x256_S131072x768_d1 : Shape.Concatenates [S131072x256, S131072x256, S131072x256] S131072x768 1
  slices_S2x65536_S1x65536_1_0 : S2x65536.Slices ![1, 0] S1x65536
  concatenates_S16384x256_S16384x256_S16384x512_d1 : Shape.Concatenates [S16384x256, S16384x256] S16384x512 1
  transposes_S256x256_S256x256_1_0 : S256x256.Transposes [1, 0] S256x256
  transposes_S256x512_S512x256_1_0 : S256x512.Transposes [1, 0] S512x256
  transposes_S256x768_S768x256_1_0 : S256x768.Transposes [1, 0] S768x256
  bcast_S_S131072 : S_.BroadcastsInDim S131072 (![] : Fin 0 → Fin S131072.rank)
  gather_S131072x256_S262144x1_S262144x256_1_0_n_n_0_1_1256_wf : GatherDims.WF S131072x256 S262144x1 S262144x256 [1] [0] [] [0] [] 1 ![1, 256]
  scatter_S65536x256_S262144x1_S262144x256_1_0_0_1_wf : ScatterDims.WF S65536x256 S262144x1 S262144x256 [1] [0] [0] 1
  scatter_S16384x256_S131072x1_S131072x256_1_0_0_1_wf : ScatterDims.WF S16384x256 S131072x1 S131072x256 [1] [0] [0] 1
  scatter_S16384x1_S131072x1_S131072x1_1_0_0_1_wf : ScatterDims.WF S16384x1 S131072x1 S131072x1 [1] [0] [0] 1
  gather_S16384x256_S65536x1_S65536x256_1_0_n_n_0_1_1256_wf : GatherDims.WF S16384x256 S65536x1 S65536x256 [1] [0] [] [0] [] 1 ![1, 256]
  scatter_S131072x256_S262144x1_S262144x256_1_0_0_1_wf : ScatterDims.WF S131072x256 S262144x1 S262144x256 [1] [0] [0] 1
  gather_S65536x256_S262144x1_S262144x256_1_0_n_n_0_1_1256_wf : GatherDims.WF S65536x256 S262144x1 S262144x256 [1] [0] [] [0] [] 1 ![1, 256]
  scatter_S16384x256_S65536x1_S65536x256_1_0_0_1_wf : ScatterDims.WF S16384x256 S65536x1 S65536x256 [1] [0] [0] 1
  dot_S16384x256_S256x256_S16384x256_1_0_0_1_n_n_wf : DotDims.WF S16384x256 S256x256 S16384x256 [1] [0] [0] [1] [] []
  dot_S16384x512_S512x256_S16384x256_1_0_0_1_n_n_wf : DotDims.WF S16384x512 S512x256 S16384x256 [1] [0] [0] [1] [] []
  dot_S131072x256_S256x256_S131072x256_1_0_0_1_n_n_wf : DotDims.WF S131072x256 S256x256 S131072x256 [1] [0] [0] [1] [] []
  dot_S131072x768_S768x256_S131072x256_1_0_0_1_n_n_wf : DotDims.WF S131072x768 S768x256 S131072x256 [1] [0] [0] [1] [] []
  gather_S16384x256_S131072x1_S131072x256_1_0_n_n_0_1_1256_wf : GatherDims.WF S16384x256 S131072x1 S131072x256 [1] [0] [] [0] [] 1 ![1, 256]

variable [Facts₀]

def gather_S131072x256_S262144x1_S262144x256_1_0_n_n_0_1_1256 : GatherDims S131072x256 S262144x1 S262144x256 where
  offsetDims := [1]
  collapsedSliceDims := [0]
  operandBatchingDims := []
  startIndicesBatchingDims := []
  startIndexMap := [0]
  indexVectorDim := 1
  sliceSizes := ![1, 256]
  wf := gather_S131072x256_S262144x1_S262144x256_1_0_n_n_0_1_1256_wf
def scatter_S65536x256_S262144x1_S262144x256_1_0_0_1 : ScatterDims S65536x256 S262144x1 S262144x256 where
  updateWindowDims := [1]
  insertedWindowDims := [0]
  scatterDimsToOperandDims := [0]
  indexVectorDim := 1
  wf := scatter_S65536x256_S262144x1_S262144x256_1_0_0_1_wf
def scatter_S16384x256_S131072x1_S131072x256_1_0_0_1 : ScatterDims S16384x256 S131072x1 S131072x256 where
  updateWindowDims := [1]
  insertedWindowDims := [0]
  scatterDimsToOperandDims := [0]
  indexVectorDim := 1
  wf := scatter_S16384x256_S131072x1_S131072x256_1_0_0_1_wf
def scatter_S16384x1_S131072x1_S131072x1_1_0_0_1 : ScatterDims S16384x1 S131072x1 S131072x1 where
  updateWindowDims := [1]
  insertedWindowDims := [0]
  scatterDimsToOperandDims := [0]
  indexVectorDim := 1
  wf := scatter_S16384x1_S131072x1_S131072x1_1_0_0_1_wf
def gather_S16384x256_S65536x1_S65536x256_1_0_n_n_0_1_1256 : GatherDims S16384x256 S65536x1 S65536x256 where
  offsetDims := [1]
  collapsedSliceDims := [0]
  operandBatchingDims := []
  startIndicesBatchingDims := []
  startIndexMap := [0]
  indexVectorDim := 1
  sliceSizes := ![1, 256]
  wf := gather_S16384x256_S65536x1_S65536x256_1_0_n_n_0_1_1256_wf
def scatter_S131072x256_S262144x1_S262144x256_1_0_0_1 : ScatterDims S131072x256 S262144x1 S262144x256 where
  updateWindowDims := [1]
  insertedWindowDims := [0]
  scatterDimsToOperandDims := [0]
  indexVectorDim := 1
  wf := scatter_S131072x256_S262144x1_S262144x256_1_0_0_1_wf
def gather_S65536x256_S262144x1_S262144x256_1_0_n_n_0_1_1256 : GatherDims S65536x256 S262144x1 S262144x256 where
  offsetDims := [1]
  collapsedSliceDims := [0]
  operandBatchingDims := []
  startIndicesBatchingDims := []
  startIndexMap := [0]
  indexVectorDim := 1
  sliceSizes := ![1, 256]
  wf := gather_S65536x256_S262144x1_S262144x256_1_0_n_n_0_1_1256_wf
def scatter_S16384x256_S65536x1_S65536x256_1_0_0_1 : ScatterDims S16384x256 S65536x1 S65536x256 where
  updateWindowDims := [1]
  insertedWindowDims := [0]
  scatterDimsToOperandDims := [0]
  indexVectorDim := 1
  wf := scatter_S16384x256_S65536x1_S65536x256_1_0_0_1_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x768_S768x256_S131072x256_1_0_0_1_n_n : DotDims S131072x768 S768x256 S131072x256 where
  lhsContracting := [1]
  rhsContracting := [0]
  lhsNonContracting := [0]
  rhsNonContracting := [1]
  lhsBatch := []
  rhsBatch := []
  wf := dot_S131072x768_S768x256_S131072x256_1_0_0_1_n_n_wf
def gather_S16384x256_S131072x1_S131072x256_1_0_n_n_0_1_1256 : GatherDims S16384x256 S131072x1 S131072x256 where
  offsetDims := [1]
  collapsedSliceDims := [0]
  operandBatchingDims := []
  startIndicesBatchingDims := []
  startIndexMap := [0]
  indexVectorDim := 1
  sliceSizes := ![1, 256]
  wf := gather_S16384x256_S131072x1_S131072x256_1_0_n_n_0_1_1256_wf

class Facts : Prop extends Facts₀ where

variable [Facts]
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.Region0.lean ====
/-
  The first pipelined region — the projection of the per-domain invariants — read as ONE function of the arrays the
  region is entered with.

  The grid has four points; point `t` stages rows `4096·t … 4096·t + 4095` of each of the three row operands and the
  whole of each of the three weight matrices, multiplies each row block by its weight matrix into a zero accumulator, adds
  the three products left to right, and writes the block back to the same rows of the result. Over the extended reals a
  matrix product into a zero accumulator is the plain sum over the contracted index, so entry `(p, q)` of the block is
  `(Σₖ a(p,k)·wa(k,q) + Σₖ b(p,k)·wb(k,q)) + Σₖ d(p,k)·wd(k,q)` of the blocks' rows; a block's row `p` is the array's row
  `4096·t + p`, and the four blocks tile the result's rows. Hence the result array ends holding `invEntry` of the whole
  entry arrays, row by row.
-/
import proofs.«148673_j10986526343793_1_alg».proof.Proof.Gen.KernelIdeal.Frame
import proofs.«148673_j10986526343793_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## The body's arithmetic at an entry -/

/-- The kernels' one record of dimension numbers is the plain `[R, K] · [K, N]` one. -/
theorem dot_plain : PlainDot.IsPlain (R := 4096) (K := 256) (N := 256) dot_S4096x256_S256x256_S4096x256_1_0_0_1_n_n :=
  ⟨rfl, rfl, rfl, rfl, rfl, rfl⟩

/-- A row block times a weight matrix into the zero accumulator, at `(p, q)`: the sum over the contracted index. -/
theorem mm_apply (x : FVec Ideal S4096x256 .bf16) (w : FVec Ideal S256x256 .bf16) (p : Fin 4096) (q : Fin 256) :
    matmul (F := Ideal) dot_S4096x256_S256x256_S4096x256_1_0_0_1_n_n none x w
        (constant S4096x256 .f32 0x00000000#32) (ix2 p q)
      = ∑ k : Fin 256, x (ix2 p k) * w (ix2 k q) :=
  (Ideal.matmul_constant_zero_apply (φ₁ := .bf16) (φ₂ := .bf16) dot_S4096x256_S256x256_S4096x256_1_0_0_1_n_n none x w (ix2 p q)).trans
    (PlainDot.sum_contr dot_plain x w p q)

/-- Entry `(p, q)` of the three-product sum, over any number of rows. -/
def invEntry {R : ℕ} (a b d : (⟨2, ![R, 256]⟩ : Shape).Idx → EReal) (wa wb wd : S256x256.Idx → EReal)
    (p : Fin R) (q : Fin 256) : EReal :=
  (∑ k : Fin 256, a (ix2 p k) * wa (ix2 k q) + ∑ k : Fin 256, b (ix2 p k) * wb (ix2 k q))
    + ∑ k : Fin 256, d (ix2 p k) * wd (ix2 k q)

/-- The body's stored value at an entry of the block. -/
theorem pay_apply (x0 x1 x2 : Vec Ideal S4096x256 .bf16) (w0 w1 w2 : Vec Ideal S256x256 .bf16) (p : Fin 4096) (q : Fin 256) :
    k0_pay1 (F := Ideal) x0 w0 x1 w1 x2 w2 (ix2 p q) = invEntry x0 x1 x2 w0 w1 w2 p q := by
  unfold k0_pay1 invEntry
  simp only [shapeCast_self]
  rw [addf_apply, addf_apply, mm_apply, mm_apply, mm_apply]

/-! ## From blocks to the array -/

/-- The whole-array function: row `i 0`, column `i 1`. -/
def invArr (a b d : S16384x256.Idx → EReal) (wa wb wd : S256x256.Idx → EReal) : S16384x256.Idx → EReal :=
  fun i => invEntry a b d wa wb wd ⟨(i 0).val, (i 0).isLt⟩ ⟨(i 1).val, (i 1).isLt⟩

theorem invArr_ix2 (a b d : S16384x256.Idx → EReal) (wa wb wd : S256x256.Idx → EReal) (p : Fin 16384) (q : Fin 256) :
    invArr a b d wa wb wd (ix2 p q) = invEntry a b d wa wb wd p q := rfl

theorem hz : (![0, 0] : Fin 2 → Nat) = fun _ => 0 := funext fun a => by fin_cases a <;> rfl

/-- The printed index maps over the four points: the row operands and the result move with the point along the rows, the
    weight matrices stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- WHAT POINT `t` WRITES BACK is block `t` of `invArr` of the arrays as the region finds them: a row operand's block row
    `p` is the array's row `4096·t + p`, a weight matrix's block is the matrix, and the result's block row `p` is row
    `4096·t + p` too. -/
theorem flushed_eq (c : Dev nD) (t : Fin cfg0.N) :
    (dat0 (F := Ideal) V c).flushed 6 t
      = ((cfg0.win 6).blk t).view.read (Elt Ideal)
          (invArr (V c main_v84) (V c main_v85) (V c main_v86) (V c main_v66) (V c main_v69) (V c main_v72)) := by
  show (cfg0.win 6).cut (grid0.coords t) ((dat0 (F := Ideal) V c).after 6 t) = _
  rw [after0_6]
  unfold out0_6
  rw [View.canon_unit_zero hz]
  simp only [View.ld_unit_zero (S := S4096x256) hz, View.ld_unit_zero (S := S256x256) hz]
  obtain ⟨e00, e01, e10, e11, e20, e21, e30, e31, e40, e41, e50, e51, e60, e61⟩ := idx_facts t
  have ht : t.val < 4 := t.isLt
  funext j
  obtain ⟨p, q, rfl⟩ : ∃ (p : Fin 4096) (q : Fin 256), j = ix2 p q := ⟨j 0, j 1, eq_ix2 j⟩
  have hp : p.val < 4096 := p.isLt
  show k0_pay1 (F := Ideal) (iblk0 V c 0 t) (iblk0 V c 3 t) (iblk0 V c 1 t) (iblk0 V c 4 t) (iblk0 V c 2 t) (iblk0 V c 5 t) (ix2 p q)
    = invArr (V c main_v84) (V c main_v85) (V c main_v86) (V c main_v66) (V c main_v69) (V c main_v72)
        (((cfg0.win 6).blk t).view.emb (ix2 p q))
  refine (pay_apply (iblk0 V c 0 t) (iblk0 V c 1 t) (iblk0 V c 2 t) (iblk0 V c 3 t) (iblk0 V c 4 t) (iblk0 V c 5 t) p q).trans ?_
  have hemb : ((cfg0.win 6).blk t).view.emb (ix2 p q) = ix2 (⟨t.val * 4096 + p.val, by omega⟩ : Fin 16384) q := by
    funext a; apply Fin.ext
    match a with
    | ⟨0, _⟩ => show win0_6.index t (0 : Fin 2) * 4096 + 1 * p.val = t.val * 4096 + p.val; omega
    | ⟨1, _⟩ => show win0_6.index t (1 : Fin 2) * 256 + 1 * q.val = q.val; omega
  rw [hemb, invArr_ix2]
  have r0 : ∀ k : Fin 256, iblk0 V c 0 t (ix2 p k) = V c main_v84 (ix2 (⟨t.val * 4096 + p.val, by omega⟩ : Fin 16384) k) := fun k => by
    show V c main_v84 (((cfg0.win 0).blk t).view.emb (ix2 p k)) = _
    refine congrArg _ ?_
    funext a; apply Fin.ext
    match a with
    | ⟨0, _⟩ => show win0_0.index t (0 : Fin 2) * 4096 + 1 * p.val = t.val * 4096 + p.val; omega
    | ⟨1, _⟩ => show win0_0.index t (1 : Fin 2) * 256 + 1 * k.val = k.val; omega
  have r1 : ∀ k : Fin 256, iblk0 V c 1 t (ix2 p k) = V c main_v85 (ix2 (⟨t.val * 4096 + p.val, by omega⟩ : Fin 16384) k) := fun k => by
    show V c main_v85 (((cfg0.win 1).blk t).view.emb (ix2 p k)) = _
    refine congrArg _ ?_
    funext a; apply Fin.ext
    match a with
    | ⟨0, _⟩ => show win0_1.index t (0 : Fin 2) * 4096 + 1 * p.val = t.val * 4096 + p.val; omega
    | ⟨1, _⟩ => show win0_1.index t (1 : Fin 2) * 256 + 1 * k.val = k.val; omega
  have r2 : ∀ k : Fin 256, iblk0 V c 2 t (ix2 p k) = V c main_v86 (ix2 (⟨t.val * 4096 + p.val, by omega⟩ : Fin 16384) k) := fun k => by
    show V c main_v86 (((cfg0.win 2).blk t).view.emb (ix2 p k)) = _
    refine congrArg _ ?_
    funext a; apply Fin.ext
    match a with
    | ⟨0, _⟩ => show win0_2.index t (0 : Fin 2) * 4096 + 1 * p.val = t.val * 4096 + p.val; omega
    | ⟨1, _⟩ => show win0_2.index t (1 : Fin 2) * 256 + 1 * k.val = k.val; omega
  have r3 : ∀ k : Fin 256, iblk0 V c 3 t (ix2 k q) = V c main_v66 (ix2 k q) := fun k => by
    show V c main_v66 (((cfg0.win 3).blk t).view.emb (ix2 k q)) = _
    refine congrArg _ ?_
    funext a; apply Fin.ext
    match a with
    | ⟨0, _⟩ => show win0_3.index t (0 : Fin 2) * 256 + 1 * k.val = k.val; omega
    | ⟨1, _⟩ => show win0_3.index t (1 : Fin 2) * 256 + 1 * q.val = q.val; omega
  have r4 : ∀ k : Fin 256, iblk0 V c 4 t (ix2 k q) = V c main_v69 (ix2 k q) := fun k => by
    show V c main_v69 (((cfg0.win 4).blk t).view.emb (ix2 k q)) = _
    refine congrArg _ ?_
    funext a; apply Fin.ext
    match a with
    | ⟨0, _⟩ => show win0_4.index t (0 : Fin 2) * 256 + 1 * k.val = k.val; omega
    | ⟨1, _⟩ => show win0_4.index t (1 : Fin 2) * 256 + 1 * q.val = q.val; omega
  have r5 : ∀ k : Fin 256, iblk0 V c 5 t (ix2 k q) = V c main_v72 (ix2 k q) := fun k => by
    show V c main_v72 (((cfg0.win 5).blk t).view.emb (ix2 k q)) = _
    refine congrArg _ ?_
    funext a; apply Fin.ext
    match a with
    | ⟨0, _⟩ => show win0_5.index t (0 : Fin 2) * 256 + 1 * k.val = k.val; omega
    | ⟨1, _⟩ => show win0_5.index t (1 : Fin 2) * 256 + 1 * q.val = q.val; omega
  unfold invEntry
  exact congrArg₂ (· + ·)
    (congrArg₂ (· + ·) (Finset.sum_congr rfl fun k _ => congrArg₂ (· * ·) (r0 k) (r3 k))
      (Finset.sum_congr rfl fun k _ => congrArg₂ (· * ·) (r1 k) (r4 k)))
    (Finset.sum_congr rfl fun k _ => congrArg₂ (· * ·) (r2 k) (r5 k))

/-- An index of the result array is in point `t`'s block iff each coordinate is in the block's range on its axis. -/
theorem mem_blk (t : Fin cfg0.N) (i : S16384x256.Idx) :
    i ∈ ((cfg0.win 6).blk t).view.set ↔ ∀ a : Fin 2, win0_6.index t a * S4096x256.size a ≤ (i a).val ∧ (i a).val < win0_6.index t a * S4096x256.size a + S4096x256.size a := by
  show i ∈ ((View.whole main_v87).slice (win0_6.rect t)).set ↔ _
  rw [View.set_slice_whole, Rect.mem_set_unit]
  exact Iff.rfl

/-- The four blocks tile the result's rows: row `r` is in the block of point `r / 4096`. -/
theorem cover (i : S16384x256.Idx) :
    ∃ t : Fin cfg0.N, (cfg0.win 6).flush t = true ∧ i ∈ ((cfg0.win 6).blk t).view.set := by
  have hi0 : (i 0).val < 16384 := (i 0).isLt
  have hi1 : (i 1).val < 256 := (i 1).isLt
  have hlt : (i 0).val / 4096 < 4 := by omega
  obtain ⟨-, -, -, -, -, -, -, -, -, -, -, -, e60, e61⟩ := idx_facts ⟨(i 0).val / 4096, hlt⟩
  refine ⟨⟨(i 0).val / 4096, hlt⟩, flush0_6 _, ?_⟩
  rw [mem_blk]
  intro a
  match a with
  | ⟨0, _⟩ =>
    show win0_6.index ⟨(i 0).val / 4096, hlt⟩ (0 : Fin 2) * 4096 ≤ (i 0).val ∧ (i 0).val < win0_6.index ⟨(i 0).val / 4096, hlt⟩ (0 : Fin 2) * 4096 + 4096
    have e : win0_6.index ⟨(i 0).val / 4096, hlt⟩ (0 : Fin 2) = (i 0).val / 4096 := e60
    omega
  | ⟨1, _⟩ =>
    show win0_6.index ⟨(i 0).val / 4096, hlt⟩ (1 : Fin 2) * 256 ≤ (i 1).val ∧ (i 1).val < win0_6.index ⟨(i 0).val / 4096, hlt⟩ (1 : Fin 2) * 256 + 256
    omega

/-- THE RESULT ARRAY after the region: `invArr` of the arrays the region is entered with. -/
theorem final (c : Dev nD) :
    (dat0 (F := Ideal) V c).arrAt 6 cfg0.N
      = invArr (V c main_v84) (V c main_v85) (V c main_v86) (V c main_v66) (V c main_v69) (V c main_v72) :=
  (dat0 (F := Ideal) V c).arrAt_eq_of_cover 6 _ (fun t _ => flushed_eq V c t) cover

end Cert.KernelIdeal.Region0

end
-- ==== Proof.Region1.lean ====
/-
  The second pipelined region — the projection of the per-atom maps — read as ONE function of the arrays the region is
  entered with.

  The grid has thirty-two points; point `t` stages rows `4096·t … 4096·t + 4095` of each of the four row operands and of
  the gathered invariant block, and the whole of each of the four weight matrices; it multiplies each row block by its
  weight matrix into a zero accumulator, adds the four products left to right, adds the gathered block, and writes the
  result back to the same rows. Over the extended reals entry `(p, q)` of the block is
  `((((Σₖ x(p,k)·w₀(k,q)) + Σₖ y₀(p,k)·w₁(k,q)) + Σₖ y₁(p,k)·w₂(k,q)) + Σₖ y₂(p,k)·w₃(k,q)) + g(p,q)`; a block's row `p` is the
  array's row `4096·t + p`, and the thirty-two blocks tile the result's rows. Hence the result array ends holding
  `outEntry` of the whole entry arrays, row by row.
-/
import proofs.«148673_j10986526343793_1_alg».proof.Proof.Gen.KernelIdeal.Frame
import proofs.«148673_j10986526343793_1_alg».proof.Proof.LibPlainDot
import proofs.«148673_j10986526343793_1_alg».proof.Proof.Region0
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region1

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open Cert.KernelIdeal.Region0 (mm_apply hz)

/-! ## The body's arithmetic at an entry -/

/-- Entry `(p, q)` of the four-product sum plus the added block, over any number of rows. -/
def outEntry {R : ℕ} (x y0 y1 y2 g : (⟨2, ![R, 256]⟩ : Shape).Idx → EReal) (w0 w1 w2 w3 : S256x256.Idx → EReal)
    (p : Fin R) (q : Fin 256) : EReal :=
  ((((∑ k : Fin 256, x (ix2 p k) * w0 (ix2 k q)) + ∑ k : Fin 256, y0 (ix2 p k) * w1 (ix2 k q))
      + ∑ k : Fin 256, y1 (ix2 p k) * w2 (ix2 k q)) + ∑ k : Fin 256, y2 (ix2 p k) * w3 (ix2 k q))
    + g (ix2 p q)

/-- The body's stored value at an entry of the block. -/
theorem pay_apply (x y0 y1 y2 : Vec Ideal S4096x256 .bf16) (g : Vec Ideal S4096x256 .f32)
    (w0 w1 w2 w3 : Vec Ideal S256x256 .bf16) (p : Fin 4096) (q : Fin 256) :
    k1_pay1 (F := Ideal) x w0 y0 w1 y1 w2 y2 w3 g (ix2 p q) = outEntry x y0 y1 y2 g w0 w1 w2 w3 p q := by
  unfold k1_pay1 outEntry
  simp only [shapeCast_self]
  rw [addf_apply, addf_apply, addf_apply, addf_apply, mm_apply, mm_apply, mm_apply, mm_apply]

/-! ## From blocks to the array -/

/-- The whole-array function: row `i 0`, column `i 1`. -/
def outArr (x y0 y1 y2 g : S131072x256.Idx → EReal) (w0 w1 w2 w3 : S256x256.Idx → EReal) : S131072x256.Idx → EReal :=
  fun i => outEntry x y0 y1 y2 g w0 w1 w2 w3 ⟨(i 0).val, (i 0).isLt⟩ ⟨(i 1).val, (i 1).isLt⟩

theorem outArr_ix2 (x y0 y1 y2 g : S131072x256.Idx → EReal) (w0 w1 w2 w3 : S256x256.Idx → EReal) (p : Fin 131072) (q : Fin 256) :
    outArr x y0 y1 y2 g w0 w1 w2 w3 (ix2 p q) = outEntry x y0 y1 y2 g w0 w1 w2 w3 p q := rfl

/-- The printed index maps over the thirty-two points: the row operands, the gathered block and the result move with the
    point along the rows, the weight matrices stay at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

variable (V : (c : Dev nD) → (b : Ref sig .tc) → Buf (Elt Ideal) ((c : Thread nD τ).loc b))

/-- WHAT POINT `t` WRITES BACK is block `t` of `outArr` of the arrays as the region finds them: a row operand's block row
    `p` is the array's row `4096·t + p`, a weight matrix's block is the matrix, and the result's block row `p` is row
    `4096·t + p` too. -/
theorem flushed_eq (c : Dev nD) (t : Fin cfg1.N) :
    (dat1 (F := Ideal) V c).flushed 9 t
      = ((cfg1.win 9).blk t).view.read (Elt Ideal)
          (outArr (V c main_v95) (V c main_v96) (V c main_v97) (V c main_v98) (V c main_v94)
            (V c main_v74) (V c main_v77) (V c main_v80) (V c main_v83)) := by
  show (cfg1.win 9).cut (grid1.coords t) ((dat1 (F := Ideal) V c).after 9 t) = _
  rw [after1_9]
  unfold out1_9
  rw [View.canon_unit_zero hz]
  simp only [View.ld_unit_zero (S := S4096x256) hz, View.ld_unit_zero (S := S256x256) hz]
  obtain ⟨e00, e01, e10, e11, e20, e21, e30, e31, e40, e41, e50, e51, e60, e61, e70, e71, e80, e81, e90, e91⟩ := idx_facts t
  have ht : t.val < 32 := t.isLt
  funext j
  obtain ⟨p, q, rfl⟩ : ∃ (p : Fin 4096) (q : Fin 256), j = ix2 p q := ⟨j 0, j 1, eq_ix2 j⟩
  have hp : p.val < 4096 := p.isLt
  show k1_pay1 (F := Ideal) (iblk1 V c 0 t) (iblk1 V c 5 t) (iblk1 V c 1 t) (iblk1 V c 6 t) (iblk1 V c 2 t) (iblk1 V c 7 t)
      (iblk1 V c 3 t) (iblk1 V c 8 t) (iblk1 V c 4 t) (ix2 p q)
    = outArr (V c main_v95) (V c main_v96) (V c main_v97) (V c main_v98) (V c main_v94)
        (V c main_v74) (V c main_v77) (V c main_v80) (V c main_v83) (((cfg1.win 9).blk t).view.emb (ix2 p q))
  refine (pay_apply (iblk1 V c 0 t) (iblk1 V c 1 t) (iblk1 V c 2 t) (iblk1 V c 3 t) (iblk1 V c 4 t)
    (iblk1 V c 5 t) (iblk1 V c 6 t) (iblk1 V c 7 t) (iblk1 V c 8 t) p q).trans ?_
  have hemb : ((cfg1.win 9).blk t).view.emb (ix2 p q) = ix2 (⟨t.val * 4096 + p.val, by omega⟩ : Fin 131072) q := by
    funext a; apply Fin.ext
    match a with
    | ⟨0, _⟩ => show win1_9.index t (0 : Fin 2) * 4096 + 1 * p.val = t.val * 4096 + p.val; omega
    | ⟨1, _⟩ => show win1_9.index t (1 : Fin 2) * 256 + 1 * q.val = q.val; omega
  rw [hemb, outArr_ix2]
  have r0 : ∀ k : Fin 256, iblk1 V c 0 t (ix2 p k) = V c main_v95 (ix2 (⟨t.val * 4096 + p.val, by omega⟩ : Fin 131072) k) := fun k => by
    show V c main_v95 (((cfg1.win 0).blk t).view.emb (ix2 p k)) = _
    refine congrArg _ ?_
    funext a; apply Fin.ext
    match a with
    | ⟨0, _⟩ => show win1_0.index t (0 : Fin 2) * 4096 + 1 * p.val = t.val * 4096 + p.val; omega
    | ⟨1, _⟩ => show win1_0.index t (1 : Fin 2) * 256 + 1 * k.val = k.val; omega
  have r1 : ∀ k : Fin 256, iblk1 V c 1 t (ix2 p k) = V c main_v96 (ix2 (⟨t.val * 4096 + p.val, by omega⟩ : Fin 131072) k) := fun k => by
    show V c main_v96 (((cfg1.win 1).blk t).view.emb (ix2 p k)) = _
    refine congrArg _ ?_
    funext a; apply Fin.ext
    match a with
    | ⟨0, _⟩ => show win1_1.index t (0 : Fin 2) * 4096 + 1 * p.val = t.val * 4096 + p.val; omega
    | ⟨1, _⟩ => show win1_1.index t (1 : Fin 2) * 256 + 1 * k.val = k.val; omega
  have r2 : ∀ k : Fin 256, iblk1 V c 2 t (ix2 p k) = V c main_v97 (ix2 (⟨t.val * 4096 + p.val, by omega⟩ : Fin 131072) k) := fun k => by
    show V c main_v97 (((cfg1.win 2).blk t).view.emb (ix2 p k)) = _
    refine congrArg _ ?_
    funext a; apply Fin.ext
    match a with
    | ⟨0, _⟩ => show win1_2.index t (0 : Fin 2) * 4096 + 1 * p.val = t.val * 4096 + p.val; omega
    | ⟨1, _⟩ => show win1_2.index t (1 : Fin 2) * 256 + 1 * k.val = k.val; omega
  have r3 : ∀ k : Fin 256, iblk1 V c 3 t (ix2 p k) = V c main_v98 (ix2 (⟨t.val * 4096 + p.val, by omega⟩ : Fin 131072) k) := fun k => by
    show V c main_v98 (((cfg1.win 3).blk t).view.emb (ix2 p k)) = _
    refine congrArg _ ?_
    funext a; apply Fin.ext
    match a with
    | ⟨0, _⟩ => show win1_3.index t (0 : Fin 2) * 4096 + 1 * p.val = t.val * 4096 + p.val; omega
    | ⟨1, _⟩ => show win1_3.index t (1 : Fin 2) * 256 + 1 * k.val = k.val; omega
  have r4 : iblk1 V c 4 t (ix2 p q) = V c main_v94 (ix2 (⟨t.val * 4096 + p.val, by omega⟩ : Fin 131072) q) := by
    show V c main_v94 (((cfg1.win 4).blk t).view.emb (ix2 p q)) = _
    refine congrArg _ ?_
    funext a; apply Fin.ext
    match a with
    | ⟨0, _⟩ => show win1_4.index t (0 : Fin 2) * 4096 + 1 * p.val = t.val * 4096 + p.val; omega
    | ⟨1, _⟩ => show win1_4.index t (1 : Fin 2) * 256 + 1 * q.val = q.val; omega
  have r5 : ∀ k : Fin 256, iblk1 V c 5 t (ix2 k q) = V c main_v74 (ix2 k q) := fun k => by
    show V c main_v74 (((cfg1.win 5).blk t).view.emb (ix2 k q)) = _
    refine congrArg _ ?_
    funext a; apply Fin.ext
    match a with
    | ⟨0, _⟩ => show win1_5.index t (0 : Fin 2) * 256 + 1 * k.val = k.val; omega
    | ⟨1, _⟩ => show win1_5.index t (1 : Fin 2) * 256 + 1 * q.val = q.val; omega
  have r6 : ∀ k : Fin 256, iblk1 V c 6 t (ix2 k q) = V c main_v77 (ix2 k q) := fun k => by
    show V c main_v77 (((cfg1.win 6).blk t).view.emb (ix2 k q)) = _
    refine congrArg _ ?_
    funext a; apply Fin.ext
    match a with
    | ⟨0, _⟩ => show win1_6.index t (0 : Fin 2) * 256 + 1 * k.val = k.val; omega
    | ⟨1, _⟩ => show win1_6.index t (1 : Fin 2) * 256 + 1 * q.val = q.val; omega
  have r7 : ∀ k : Fin 256, iblk1 V c 7 t (ix2 k q) = V c main_v80 (ix2 k q) := fun k => by
    show V c main_v80 (((cfg1.win 7).blk t).view.emb (ix2 k q)) = _
    refine congrArg _ ?_
    funext a; apply Fin.ext
    match a with
    | ⟨0, _⟩ => show win1_7.index t (0 : Fin 2) * 256 + 1 * k.val = k.val; omega
    | ⟨1, _⟩ => show win1_7.index t (1 : Fin 2) * 256 + 1 * q.val = q.val; omega
  have r8 : ∀ k : Fin 256, iblk1 V c 8 t (ix2 k q) = V c main_v83 (ix2 k q) := fun k => by
    show V c main_v83 (((cfg1.win 8).blk t).view.emb (ix2 k q)) = _
    refine congrArg _ ?_
    funext a; apply Fin.ext
    match a with
    | ⟨0, _⟩ => show win1_8.index t (0 : Fin 2) * 256 + 1 * k.val = k.val; omega
    | ⟨1, _⟩ => show win1_8.index t (1 : Fin 2) * 256 + 1 * q.val = q.val; omega
  unfold outEntry
  exact congrArg₂ (· + ·)
    (congrArg₂ (· + ·)
      (congrArg₂ (· + ·)
        (congrArg₂ (· + ·) (Finset.sum_congr rfl fun k _ => congrArg₂ (· * ·) (r0 k) (r5 k))
          (Finset.sum_congr rfl fun k _ => congrArg₂ (· * ·) (r1 k) (r6 k)))
        (Finset.sum_congr rfl fun k _ => congrArg₂ (· * ·) (r2 k) (r7 k)))
      (Finset.sum_congr rfl fun k _ => congrArg₂ (· * ·) (r3 k) (r8 k)))
    r4

/-- An index of the result array is in point `t`'s block iff each coordinate is in the block's range on its axis. -/
theorem mem_blk (t : Fin cfg1.N) (i : S131072x256.Idx) :
    i ∈ ((cfg1.win 9).blk t).view.set ↔ ∀ a : Fin 2, win1_9.index t a * S4096x256.size a ≤ (i a).val ∧ (i a).val < win1_9.index t a * S4096x256.size a + S4096x256.size a := by
  show i ∈ ((View.whole main_v99).slice (win1_9.rect t)).set ↔ _
  rw [View.set_slice_whole, Rect.mem_set_unit]
  exact Iff.rfl

/-- The thirty-two blocks tile the result's rows: row `r` is in the block of point `r / 4096`. -/
theorem cover (i : S131072x256.Idx) :
    ∃ t : Fin cfg1.N, (cfg1.win 9).flush t = true ∧ i ∈ ((cfg1.win 9).blk t).view.set := by
  have hi0 : (i 0).val < 131072 := (i 0).isLt
  have hi1 : (i 1).val < 256 := (i 1).isLt
  have hlt : (i 0).val / 4096 < 32 := by omega
  obtain ⟨-, -, -, -, -, -, -, -, -, -, -, -, -, -, -, -, -, -, e90, e91⟩ := idx_facts ⟨(i 0).val / 4096, hlt⟩
  refine ⟨⟨(i 0).val / 4096, hlt⟩, flush1_9 _, ?_⟩
  rw [mem_blk]
  intro a
  match a with
  | ⟨0, _⟩ =>
    show win1_9.index ⟨(i 0).val / 4096, hlt⟩ (0 : Fin 2) * 4096 ≤ (i 0).val ∧ (i 0).val < win1_9.index ⟨(i 0).val / 4096, hlt⟩ (0 : Fin 2) * 4096 + 4096
    have e : win1_9.index ⟨(i 0).val / 4096, hlt⟩ (0 : Fin 2) = (i 0).val / 4096 := e90
    omega
  | ⟨1, _⟩ =>
    show win1_9.index ⟨(i 0).val / 4096, hlt⟩ (1 : Fin 2) * 256 ≤ (i 1).val ∧ (i 1).val < win1_9.index ⟨(i 0).val / 4096, hlt⟩ (1 : Fin 2) * 256 + 256
    omega

/-- THE RESULT ARRAY after the region: `outArr` of the arrays the region is entered with. -/
theorem final (c : Dev nD) :
    (dat1 (F := Ideal) V c).arrAt 9 cfg1.N
      = outArr (V c main_v95) (V c main_v96) (V c main_v97) (V c main_v98) (V c main_v94)
          (V c main_v74) (V c main_v77) (V c main_v80) (V c main_v83) :=
  (dat1 (F := Ideal) V c).arrAt_eq_of_cover 9 _ (fun t _ => flushed_eq V c t) cover

end Cert.KernelIdeal.Region1

end
-- ==== Proof.LibColSlice.lean ====
/-
  A slice of columns of a matrix, read at an entry (general in the sizes and the element type).

  From a matrix `[r, n]` the columns `o … o + w − 1` of every row form a matrix `[r, w]`; its entry `(p, j)` is the
  source's entry `(p, o + j)`. This is what splitting a row of several gates' pre-activations into the gates
  prints, in a kernel and on a host alike.
-/
import Idealize.ShloMosaic.Lib.Pipeline.Value
import Idealize.ShloMosaic.Lib.ValueIdx

namespace Cert.Lib.ColSlice

open Idealize.ShloMosaic Idealize.ShloMosaic.ValueIdx

variable {α : Type}

/-- The slice's entry `(p, j)` is the source's entry `(p, j')` with `j' = o + j`. -/
theorem cols_apply {r n w : ℕ} (o : ℕ) (x : (⟨2, ![r, n]⟩ : Shape).Idx → α)
    (h : (⟨2, ![r, n]⟩ : Shape).Slices ![0, o] (⟨2, ![r, w]⟩ : Shape)) (p : Fin r) (j : Fin w) (j' : Fin n)
    (hj : j'.val = o + j.val) :
    extractStridedSlice (⟨2, ![r, w]⟩ : Shape) ![0, o] x h (ix2 p j) = x (ix2 p j') :=
  extractStridedSlice_apply _ x h _ _ fun a =>
    match a with
    | ⟨0, _⟩ => (Nat.zero_add _).symm
    | ⟨1, _⟩ => hj

end Cert.Lib.ColSlice
-- ==== Proof.HostA.lean ====
/-
  The first stretch of host operations, read at the buffers the first region is entered with.

  Before the first region the program gathers the atoms' rows onto the intersection pairs, sums them per intersection,
  averages the atoms' rows per domain (a sum divided by the larger of the count and one), gathers and sums again onto the
  domains, and lays out the weights (a transpose, or a slice of 256 columns then a transpose), each followed by a change of
  float format, which over the extended reals is the identity. These are the operations the reference program applies to
  the same arguments, in the same order with the same dimension numbers, so each row operand is the reference's own stage
  of the arguments: the per-domain mean, and the two per-domain sums. A weight operand read at `(k, q)` is the weight matrix
  at `(q, k)`, `(q, k)` or `(q, 256 + k)`.
-/
import proofs.«148673_j10986526343793_1_alg».proof.Proof.Gen.KernelIdeal.Frame
import proofs.«148673_j10986526343793_1_alg».proof.Proof.Gen.ReferenceIdeal.Read
import proofs.«148673_j10986526343793_1_alg».proof.Proof.LibColSlice
import Idealize.ShloMosaic.Lib.StableHlo.Run
import Idealize.ShloMosaic.Lib.Pipeline.Value
import Idealize.ShloMosaic.Lib.ValueIdx

set_option maxRecDepth 16384

noncomputable section

namespace Cert.KernelIdeal.HostA

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- A change of float format is the identity over the extended reals. -/
theorem truncf_id {s : Shape} (x : FVec Ideal s .f32) (h) : truncf (F := Ideal) .bf16 x h = x := rfl

set_option maxHeartbeats 4000000 in
/-- The per-domain mean of the atoms' rows is the reference's stage. -/
theorem xinv (c : Dev nD) :
    (W1 (F := Ideal) m ρ c (Proc.devRef .tc main_v84) : S16384x256.Idx → EReal)
      = Cert.ReferenceIdeal.Read.val_main_v24 (F := Ideal) (m ((c.tc : Thread nD τ).loc main_arg0)) (m ((c.tc : Thread nD τ).loc main_arg1)) := by
  show StableHlo.after hostOps0 (W0 (F := Ideal) m ρ c) (Proc.devRef .tc main_v84) = _
  after_results_simp
  rfl

set_option maxHeartbeats 4000000 in
/-- The intersection sums, summed per target domain, are the reference's stage. -/
theorem msd (c : Dev nD) :
    (W1 (F := Ideal) m ρ c (Proc.devRef .tc main_v85) : S16384x256.Idx → EReal)
      = Cert.ReferenceIdeal.Read.val_main_v62 (F := Ideal) (m ((c.tc : Thread nD τ).loc main_arg0)) (m ((c.tc : Thread nD τ).loc main_arg2)) (m ((c.tc : Thread nD τ).loc main_arg3)) (m ((c.tc : Thread nD τ).loc main_arg4)) := by
  show StableHlo.after hostOps0 (W0 (F := Ideal) m ρ c) (Proc.devRef .tc main_v85) = _
  after_results_simp
  rfl

set_option maxHeartbeats 4000000 in
/-- The source domains' means, summed per target domain, are the reference's stage. -/
theorem dsd (c : Dev nD) :
    (W1 (F := Ideal) m ρ c (Proc.devRef .tc main_v86) : S16384x256.Idx → EReal)
      = Cert.ReferenceIdeal.Read.val_main_v67 (F := Ideal) (m ((c.tc : Thread nD τ).loc main_arg0)) (m ((c.tc : Thread nD τ).loc main_arg1)) (m ((c.tc : Thread nD τ).loc main_arg4)) := by
  show StableHlo.after hostOps0 (W0 (F := Ideal) m ρ c) (Proc.devRef .tc main_v86) = _
  after_results_simp
  rfl

set_option maxHeartbeats 4000000 in
/-- The first weight operand is the transposed `[256, 256]` weight. -/
theorem wl (c : Dev nD) :
    (W1 (F := Ideal) m ρ c (Proc.devRef .tc main_v66) : S256x256.Idx → EReal)
      = transpose S256x256 [1, 0] (m ((c.tc : Thread nD τ).loc main_arg7)) transposes_S256x256_S256x256_1_0 := by
  show StableHlo.after hostOps0 (W0 (F := Ideal) m ρ c) (Proc.devRef .tc main_v66) = _
  after_results_simp
  rfl

set_option maxHeartbeats 4000000 in
/-- The second weight operand is the transposed first 256 columns of the `[256, 512]` weight. -/
theorem wa (c : Dev nD) :
    (W1 (F := Ideal) m ρ c (Proc.devRef .tc main_v69) : S256x256.Idx → EReal)
      = transpose S256x256 [1, 0] (extractStridedSlice S256x256 ![0, 0] (m ((c.tc : Thread nD τ).loc main_arg6)) slices_S256x512_S256x256_0_0) transposes_S256x256_S256x256_1_0 := by
  show StableHlo.after hostOps0 (W0 (F := Ideal) m ρ c) (Proc.devRef .tc main_v69) = _
  after_results_simp
  rfl

set_option maxHeartbeats 4000000 in
/-- The third weight operand is the transposed last 256 columns of the `[256, 512]` weight. -/
theorem wb (c : Dev nD) :
    (W1 (F := Ideal) m ρ c (Proc.devRef .tc main_v72) : S256x256.Idx → EReal)
      = transpose S256x256 [1, 0] (extractStridedSlice S256x256 ![0, 256] (m ((c.tc : Thread nD τ).loc main_arg6)) slices_S256x512_S256x256_0_256) transposes_S256x256_S256x256_1_0 := by
  show StableHlo.after hostOps0 (W0 (F := Ideal) m ρ c) (Proc.devRef .tc main_v72) = _
  after_results_simp
  rfl

/-! ## The weight operands at an entry -/

/-- A transposed `[256, 256]` matrix at `(k, q)` is the matrix at `(q, k)`. -/
theorem transpose_ix2 (x : S256x256.Idx → EReal) (k q : Fin 256) :
    transpose S256x256 [1, 0] x transposes_S256x256_S256x256_1_0 (ix2 k q) = x (ix2 q k) :=
  transpose_apply [1, 0] x transposes_S256x256_S256x256_1_0 (ix2 k q) (ix2 q k) (fun b => match b with
    | ⟨0, _⟩ => rfl
    | ⟨1, _⟩ => rfl)

theorem wl_apply (c : Dev nD) (k q : Fin 256) :
    (W1 (F := Ideal) m ρ c (Proc.devRef .tc main_v66) : S256x256.Idx → EReal) (ix2 k q) = (m ((c.tc : Thread nD τ).loc main_arg7)) (ix2 q k) := by
  rw [wl, transpose_ix2]

theorem wa_apply (c : Dev nD) (k q : Fin 256) :
    (W1 (F := Ideal) m ρ c (Proc.devRef .tc main_v69) : S256x256.Idx → EReal) (ix2 k q)
      = (m ((c.tc : Thread nD τ).loc main_arg6)) (ix2 q (⟨k.val, by omega⟩ : Fin 512)) := by
  rw [wa, transpose_ix2]
  exact Cert.Lib.ColSlice.cols_apply 0 _ _ q k _ (Nat.zero_add _).symm

theorem wb_apply (c : Dev nD) (k q : Fin 256) :
    (W1 (F := Ideal) m ρ c (Proc.devRef .tc main_v72) : S256x256.Idx → EReal) (ix2 k q)
      = (m ((c.tc : Thread nD τ).loc main_arg6)) (ix2 q (⟨256 + k.val, by omega⟩ : Fin 512)) := by
  rw [wb, transpose_ix2]
  exact Cert.Lib.ColSlice.cols_apply 256 _ _ q k _ rfl

end Cert.KernelIdeal.HostA

end
-- ==== Proof.HostB.lean ====
/-
  The first stretch of host operations, read at the buffers only the second region reads.

  The three per-atom maps — the gathered rows, the intersection sums gathered back, and the source domains' means gathered
  back, each summed per target atom — are the reference's own stages of the same arguments (the same operations in the
  same order with the same dimension numbers). The four weight operands are a transpose of the `[256, 256]` weight, and
  transposes of the three 256-column slices of the `[256, 768]` weight: read at `(k, q)` they are the weight at `(q, k)`,
  `(q, k)`, `(q, 256 + k)` and `(q, 512 + k)`.
-/
import proofs.«148673_j10986526343793_1_alg».proof.Proof.Gen.KernelIdeal.Frame
import proofs.«148673_j10986526343793_1_alg».proof.Proof.Gen.ReferenceIdeal.Read
import proofs.«148673_j10986526343793_1_alg».proof.Proof.LibColSlice
import Idealize.ShloMosaic.Lib.StableHlo.Run
import Idealize.ShloMosaic.Lib.Pipeline.Value
import Idealize.ShloMosaic.Lib.ValueIdx

set_option maxRecDepth 16384

noncomputable section

namespace Cert.KernelIdeal.HostB

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

set_option maxHeartbeats 4000000 in
/-- The gathered rows summed per target atom are the reference's stage. -/
theorem y0 (c : Dev nD) :
    (W1 (F := Ideal) m ρ c (Proc.devRef .tc main_v38) : S131072x256.Idx → EReal)
      = Cert.ReferenceIdeal.Read.val_main_v36 (F := Ideal) (m ((c.tc : Thread nD τ).loc main_arg0)) (m ((c.tc : Thread nD τ).loc main_arg2)) := by
  show StableHlo.after hostOps0 (W0 (F := Ideal) m ρ c) (Proc.devRef .tc main_v38) = _
  after_results_simp
  rfl

set_option maxHeartbeats 4000000 in
/-- The intersection sums, gathered back and summed per target atom, are the reference's stage. -/
theorem y1 (c : Dev nD) :
    (W1 (F := Ideal) m ρ c (Proc.devRef .tc main_v48) : S131072x256.Idx → EReal)
      = Cert.ReferenceIdeal.Read.val_main_v46 (F := Ideal) (m ((c.tc : Thread nD τ).loc main_arg0)) (m ((c.tc : Thread nD τ).loc main_arg2)) (m ((c.tc : Thread nD τ).loc main_arg3)) := by
  show StableHlo.after hostOps0 (W0 (F := Ideal) m ρ c) (Proc.devRef .tc main_v48) = _
  after_results_simp
  rfl

set_option maxHeartbeats 4000000 in
/-- The source domains' means, gathered back and summed per target atom, are the reference's stage. -/
theorem y2 (c : Dev nD) :
    (W1 (F := Ideal) m ρ c (Proc.devRef .tc main_v58) : S131072x256.Idx → EReal)
      = Cert.ReferenceIdeal.Read.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps0 (W0 (F := Ideal) m ρ c) (Proc.devRef .tc main_v58) = _
  after_results_simp
  rfl

set_option maxHeartbeats 4000000 in
/-- The first weight operand is the transposed `[256, 256]` weight. -/
theorem wi (c : Dev nD) :
    (W1 (F := Ideal) m ρ c (Proc.devRef .tc main_v74) : S256x256.Idx → EReal)
      = transpose S256x256 [1, 0] (m ((c.tc : Thread nD τ).loc main_arg8)) transposes_S256x256_S256x256_1_0 := by
  show StableHlo.after hostOps0 (W0 (F := Ideal) m ρ c) (Proc.devRef .tc main_v74) = _
  after_results_simp
  rfl

set_option maxHeartbeats 4000000 in
/-- The second weight operand is the transposed first 256 columns of the `[256, 768]` weight. -/
theorem t0 (c : Dev nD) :
    (W1 (F := Ideal) m ρ c (Proc.devRef .tc main_v77) : S256x256.Idx → EReal)
      = transpose S256x256 [1, 0] (extractStridedSlice S256x256 ![0, 0] (m ((c.tc : Thread nD τ).loc main_arg5)) slices_S256x768_S256x256_0_0) transposes_S256x256_S256x256_1_0 := by
  show StableHlo.after hostOps0 (W0 (F := Ideal) m ρ c) (Proc.devRef .tc main_v77) = _
  after_results_simp
  rfl

set_option maxHeartbeats 4000000 in
/-- The third weight operand is the transposed middle 256 columns of the `[256, 768]` weight. -/
theorem t1 (c : Dev nD) :
    (W1 (F := Ideal) m ρ c (Proc.devRef .tc main_v80) : S256x256.Idx → EReal)
      = transpose S256x256 [1, 0] (extractStridedSlice S256x256 ![0, 256] (m ((c.tc : Thread nD τ).loc main_arg5)) slices_S256x768_S256x256_0_256) transposes_S256x256_S256x256_1_0 := by
  show StableHlo.after hostOps0 (W0 (F := Ideal) m ρ c) (Proc.devRef .tc main_v80) = _
  after_results_simp
  rfl

set_option maxHeartbeats 4000000 in
/-- The fourth weight operand is the transposed last 256 columns of the `[256, 768]` weight. -/
theorem t2 (c : Dev nD) :
    (W1 (F := Ideal) m ρ c (Proc.devRef .tc main_v83) : S256x256.Idx → EReal)
      = transpose S256x256 [1, 0] (extractStridedSlice S256x256 ![0, 512] (m ((c.tc : Thread nD τ).loc main_arg5)) slices_S256x768_S256x256_0_512) transposes_S256x256_S256x256_1_0 := by
  show StableHlo.after hostOps0 (W0 (F := Ideal) m ρ c) (Proc.devRef .tc main_v83) = _
  after_results_simp
  rfl

/-! ## The weight operands at an entry -/

/-- A transposed `[256, 256]` matrix at `(k, q)` is the matrix at `(q, k)`. -/
theorem transpose_ix2 (x : S256x256.Idx → EReal) (k q : Fin 256) :
    transpose S256x256 [1, 0] x transposes_S256x256_S256x256_1_0 (ix2 k q) = x (ix2 q k) :=
  transpose_apply [1, 0] x transposes_S256x256_S256x256_1_0 (ix2 k q) (ix2 q k) (fun b => match b with
    | ⟨0, _⟩ => rfl
    | ⟨1, _⟩ => rfl)

theorem wi_apply (c : Dev nD) (k q : Fin 256) :
    (W1 (F := Ideal) m ρ c (Proc.devRef .tc main_v74) : S256x256.Idx → EReal) (ix2 k q) = (m ((c.tc : Thread nD τ).loc main_arg8)) (ix2 q k) := by
  rw [wi, transpose_ix2]

theorem t0_apply (c : Dev nD) (k q : Fin 256) :
    (W1 (F := Ideal) m ρ c (Proc.devRef .tc main_v77) : S256x256.Idx → EReal) (ix2 k q)
      = (m ((c.tc : Thread nD τ).loc main_arg5)) (ix2 q (⟨k.val, by omega⟩ : Fin 768)) := by
  rw [t0, transpose_ix2]
  exact Cert.Lib.ColSlice.cols_apply 0 _ _ q k _ (Nat.zero_add _).symm

theorem t1_apply (c : Dev nD) (k q : Fin 256) :
    (W1 (F := Ideal) m ρ c (Proc.devRef .tc main_v80) : S256x256.Idx → EReal) (ix2 k q)
      = (m ((c.tc : Thread nD τ).loc main_arg5)) (ix2 q (⟨256 + k.val, by omega⟩ : Fin 768)) := by
  rw [t1, transpose_ix2]
  exact Cert.Lib.ColSlice.cols_apply 256 _ _ q k _ rfl

theorem t2_apply (c : Dev nD) (k q : Fin 256) :
    (W1 (F := Ideal) m ρ c (Proc.devRef .tc main_v83) : S256x256.Idx → EReal) (ix2 k q)
      = (m ((c.tc : Thread nD τ).loc main_arg5)) (ix2 q (⟨512 + k.val, by omega⟩ : Fin 768)) := by
  rw [t2, transpose_ix2]
  exact Cert.Lib.ColSlice.cols_apply 512 _ _ q k _ rfl

end Cert.KernelIdeal.HostB

end
-- ==== Proof.HostC.lean ====
/-
  The second stretch of host operations, read at the buffers the second region is entered with.

  Between the two regions the program gathers the first region's result — the invariant maps — at the atoms' domain
  indices (a negative index first moved up by the number of domains), and changes the float format of the atoms' rows and
  of the three per-atom maps, which over the extended reals is the identity. The first region writes only its result
  array, so every other buffer the stretch reads still holds what the first stretch left there; the result array holds
  the three-product sum of the arrays the region was entered with. Hence: the row operands are the atoms' rows and the
  reference's three per-atom stages; the gathered block is the gather, with the kernel's dimension numbers and the
  reference's index stage, of the three-product sum over the reference's per-domain stages; the weight operands are the
  first stretch's.
-/
import proofs.«148673_j10986526343793_1_alg».proof.Proof.Gen.KernelIdeal.Frame
import proofs.«148673_j10986526343793_1_alg».proof.Proof.Gen.ReferenceIdeal.Read
import proofs.«148673_j10986526343793_1_alg».proof.Proof.Region0
import proofs.«148673_j10986526343793_1_alg».proof.Proof.HostA
import proofs.«148673_j10986526343793_1_alg».proof.Proof.HostB
import Idealize.ShloMosaic.Lib.StableHlo.Run
import Idealize.ShloMosaic.Lib.Pipeline.Value
import Idealize.ShloMosaic.Lib.ValueIdx

set_option maxRecDepth 16384

noncomputable section

namespace Cert.KernelIdeal.HostC

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

open Cert.KernelIdeal.Region0 (invArr)

/-! ## Buffers neither stretch nor the first region has written yet: the arguments -/

set_option maxHeartbeats 4000000 in
theorem W1_arg0 (c : Dev nD) : W1 (F := Ideal) m ρ c (Proc.devRef .tc main_arg0) = (m ((c.tc : Thread nD τ).loc main_arg0)) := by
  show StableHlo.after hostOps0 (W0 (F := Ideal) m ρ c) (Proc.devRef .tc main_arg0) = _
  after_results_simp

set_option maxHeartbeats 4000000 in
theorem W1_arg1 (c : Dev nD) : W1 (F := Ideal) m ρ c (Proc.devRef .tc main_arg1) = (m ((c.tc : Thread nD τ).loc main_arg1)) := by
  show StableHlo.after hostOps0 (W0 (F := Ideal) m ρ c) (Proc.devRef .tc main_arg1) = _
  after_results_simp

theorem W2_arg0 (c : Dev nD) : W2 (F := Ideal) m ρ c (Proc.devRef .tc main_arg0) = (m ((c.tc : Thread nD τ).loc main_arg0)) :=
  (W2_of_ne m ρ c main_arg0 (by decide)).trans (W1_arg0 m ρ c)

theorem W2_arg1 (c : Dev nD) : W2 (F := Ideal) m ρ c (Proc.devRef .tc main_arg1) = (m ((c.tc : Thread nD τ).loc main_arg1)) :=
  (W2_of_ne m ρ c main_arg1 (by decide)).trans (W1_arg1 m ρ c)

/-! ## The first region's result array at its exit -/

/-- The invariant maps: the three-product sum over the reference's per-domain stages and the first stretch's weight
    operands. -/
theorem W2_inv (c : Dev nD) :
    (W2 (F := Ideal) m ρ c (Proc.devRef .tc main_v87) : S16384x256.Idx → EReal)
      = invArr (Cert.ReferenceIdeal.Read.val_main_v24 (F := Ideal) (m ((c.tc : Thread nD τ).loc main_arg0)) (m ((c.tc : Thread nD τ).loc main_arg1)))
          (Cert.ReferenceIdeal.Read.val_main_v62 (F := Ideal) (m ((c.tc : Thread nD τ).loc main_arg0)) (m ((c.tc : Thread nD τ).loc main_arg2)) (m ((c.tc : Thread nD τ).loc main_arg3)) (m ((c.tc : Thread nD τ).loc main_arg4)))
          (Cert.ReferenceIdeal.Read.val_main_v67 (F := Ideal) (m ((c.tc : Thread nD τ).loc main_arg0)) (m ((c.tc : Thread nD τ).loc main_arg1)) (m ((c.tc : Thread nD τ).loc main_arg4)))
          (W1 (F := Ideal) m ρ c (Proc.devRef .tc main_v66)) (W1 (F := Ideal) m ρ c (Proc.devRef .tc main_v69))
          (W1 (F := Ideal) m ρ c (Proc.devRef .tc main_v72)) := by
  have h : W2 (F := Ideal) m ρ c (Proc.devRef .tc main_v87) = (dat0 (F := Ideal) (V1 m ρ) c).arrAt 6 cfg0.N := W2_arr m ρ c 6
  rw [h, Cert.KernelIdeal.Region0.final (V1 m ρ) c]
  show invArr (W1 (F := Ideal) m ρ c (Proc.devRef .tc main_v84)) (W1 (F := Ideal) m ρ c (Proc.devRef .tc main_v85))
      (W1 (F := Ideal) m ρ c (Proc.devRef .tc main_v86)) _ _ _ = _
  rw [Cert.KernelIdeal.HostA.xinv m ρ c, Cert.KernelIdeal.HostA.msd m ρ c, Cert.KernelIdeal.HostA.dsd m ρ c]

/-! ## The second region's entry contents -/

/-- The atoms' rows. -/
theorem x (c : Dev nD) : (W3 (F := Ideal) m ρ c (Proc.devRef .tc main_v95) : S131072x256.Idx → EReal) = (m ((c.tc : Thread nD τ).loc main_arg0)) := by
  show StableHlo.after hostOps1 (W2 (F := Ideal) m ρ c) (Proc.devRef .tc main_v95) = _
  after_results
  rw [W2_arg0]
  rfl

/-- The gathered rows summed per target atom. -/
theorem y0 (c : Dev nD) :
    (W3 (F := Ideal) m ρ c (Proc.devRef .tc main_v96) : S131072x256.Idx → EReal)
      = Cert.ReferenceIdeal.Read.val_main_v36 (F := Ideal) (m ((c.tc : Thread nD τ).loc main_arg0)) (m ((c.tc : Thread nD τ).loc main_arg2)) := by
  show StableHlo.after hostOps1 (W2 (F := Ideal) m ρ c) (Proc.devRef .tc main_v96) = _
  after_results
  rw [W2_of_ne m ρ c main_v38 (by decide), Cert.KernelIdeal.HostB.y0 m ρ c]
  exact Cert.KernelIdeal.HostA.truncf_id _ _

/-- The intersection sums gathered back and summed per target atom. -/
theorem y1 (c : Dev nD) :
    (W3 (F := Ideal) m ρ c (Proc.devRef .tc main_v97) : S131072x256.Idx → EReal)
      = Cert.ReferenceIdeal.Read.val_main_v46 (F := Ideal) (m ((c.tc : Thread nD τ).loc main_arg0)) (m ((c.tc : Thread nD τ).loc main_arg2)) (m ((c.tc : Thread nD τ).loc main_arg3)) := by
  show StableHlo.after hostOps1 (W2 (F := Ideal) m ρ c) (Proc.devRef .tc main_v97) = _
  after_results
  rw [W2_of_ne m ρ c main_v48 (by decide), Cert.KernelIdeal.HostB.y1 m ρ c]
  exact Cert.KernelIdeal.HostA.truncf_id _ _

/-- The source domains' means gathered back and summed per target atom. -/
theorem y2 (c : Dev nD) :
    (W3 (F := Ideal) m ρ c (Proc.devRef .tc main_v98) : S131072x256.Idx → EReal)
      = Cert.ReferenceIdeal.Read.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1 (W2 (F := Ideal) m ρ c) (Proc.devRef .tc main_v98) = _
  after_results
  rw [W2_of_ne m ρ c main_v58 (by decide), Cert.KernelIdeal.HostB.y2 m ρ c]
  exact Cert.KernelIdeal.HostA.truncf_id _ _

set_option maxHeartbeats 4000000 in
/-- The gathered block: the invariant maps gathered at the reference's index stage of the atoms' domain indices. -/
theorem g (c : Dev nD) :
    (W3 (F := Ideal) m ρ c (Proc.devRef .tc main_v94) : S131072x256.Idx → EReal)
      = Host.gather gather_S16384x256_S131072x1_S131072x256_1_0_n_n_0_1_1256
          (invArr (Cert.ReferenceIdeal.Read.val_main_v24 (F := Ideal) (m ((c.tc : Thread nD τ).loc main_arg0)) (m ((c.tc : Thread nD τ).loc main_arg1)))
            (Cert.ReferenceIdeal.Read.val_main_v62 (F := Ideal) (m ((c.tc : Thread nD τ).loc main_arg0)) (m ((c.tc : Thread nD τ).loc main_arg2)) (m ((c.tc : Thread nD τ).loc main_arg3)) (m ((c.tc : Thread nD τ).loc main_arg4)))
            (Cert.ReferenceIdeal.Read.val_main_v67 (F := Ideal) (m ((c.tc : Thread nD τ).loc main_arg0)) (m ((c.tc : Thread nD τ).loc main_arg1)) (m ((c.tc : Thread nD τ).loc main_arg4)))
            (W1 (F := Ideal) m ρ c (Proc.devRef .tc main_v66)) (W1 (F := Ideal) m ρ c (Proc.devRef .tc main_v69))
            (W1 (F := Ideal) m ρ c (Proc.devRef .tc main_v72)))
          (Cert.ReferenceIdeal.Read.val_main_v84 (F := Ideal) (m ((c.tc : Thread nD τ).loc main_arg1))) := by
  show StableHlo.after hostOps1 (W2 (F := Ideal) m ρ c) (Proc.devRef .tc main_v94) = _
  after_results_simp
  rw [W2_arg1, W2_inv]
  rfl

/-- A weight operand of the second region is what the first stretch left: neither the first region nor the second stretch
    writes it. -/
theorem w (c : Dev nD) (b : Ref sig .tc) (h0 : ∀ w, Pipeline.arrRef spec0 w ≠ b)
    (h1 : StableHlo.after hostOps1 (W2 (F := Ideal) m ρ c) (Proc.devRef .tc b) = W2 (F := Ideal) m ρ c (Proc.devRef .tc b)) :
    W3 (F := Ideal) m ρ c (Proc.devRef .tc b) = W1 (F := Ideal) m ρ c (Proc.devRef .tc b) :=
  h1.trans (W2_of_ne m ρ c b h0)

theorem wi (c : Dev nD) : W3 (F := Ideal) m ρ c (Proc.devRef .tc main_v74) = W1 (F := Ideal) m ρ c (Proc.devRef .tc main_v74) :=
  w m ρ c main_v74 (by decide) (by after_results)
theorem t0 (c : Dev nD) : W3 (F := Ideal) m ρ c (Proc.devRef .tc main_v77) = W1 (F := Ideal) m ρ c (Proc.devRef .tc main_v77) :=
  w m ρ c main_v77 (by decide) (by after_results)
theorem t1 (c : Dev nD) : W3 (F := Ideal) m ρ c (Proc.devRef .tc main_v80) = W1 (F := Ideal) m ρ c (Proc.devRef .tc main_v80) :=
  w m ρ c main_v80 (by decide) (by after_results)
theorem t2 (c : Dev nD) : W3 (F := Ideal) m ρ c (Proc.devRef .tc main_v83) = W1 (F := Ideal) m ρ c (Proc.devRef .tc main_v83) :=
  w m ρ c main_v83 (by decide) (by after_results)

end Cert.KernelIdeal.HostC

end
-- ==== Proof.LibConcat2.lean ====
/-
  A matrix assembled from two pieces, read at an entry.

  `rows_upper` / `rows_lower`: `[a, c]` on top of `[b, c]` (a concatenation along axis 0) read at row `r`: the
  upper piece at row `r` when `r < a`, the lower piece at row `r - a` otherwise.
  `cols_left` / `cols_right`: `[r, a]` beside `[r, b]` (along axis 1) likewise at a column.
  Generic in the extents and in the entries' type; the caller names the piece's own index and the one
  equation that places it.
-/
import Idealize.ShloMosaic.Lib.Pipeline.Value
import Idealize.ShloMosaic.Lib.ValueIdx

namespace Cert.LibConcat2

open Idealize.ShloMosaic Idealize.ShloMosaic.ValueIdx

variable {α : Type}

/-- Two blocks of rows, read at a row of the upper block. -/
theorem rows_upper {a b t c : ℕ} (x : (⟨2, ![a, c]⟩ : Shape).Idx → α) (y : (⟨2, ![b, c]⟩ : Shape).Idx → α)
    (h : Shape.Concatenates [(⟨2, ![a, c]⟩ : Shape), ⟨2, ![b, c]⟩] ⟨2, ![t, c]⟩ 0)
    (r : Fin t) (j : Fin c) (i : Fin a) (hi : i.val = r.val) :
    concatenate ⟨2, ![t, c]⟩ 0 [⟨⟨2, ![a, c]⟩, x⟩, ⟨⟨2, ![b, c]⟩, y⟩] h (ix2 r j) = x (ix2 i j) :=
  concatenate_pair_apply_left 0 x y h (ix2 r j) rfl (ix2 i j)
    (fun d => match d with | ⟨0, _⟩ => hi | ⟨1, _⟩ => rfl)

/-- Two blocks of rows, read at a row of the lower block: its own row index is the row less the upper block's height. -/
theorem rows_lower {a b t c : ℕ} (x : (⟨2, ![a, c]⟩ : Shape).Idx → α) (y : (⟨2, ![b, c]⟩ : Shape).Idx → α)
    (h : Shape.Concatenates [(⟨2, ![a, c]⟩ : Shape), ⟨2, ![b, c]⟩] ⟨2, ![t, c]⟩ 0)
    (r : Fin t) (j : Fin c) (i : Fin b) (hi : i.val + a = r.val) :
    concatenate ⟨2, ![t, c]⟩ 0 [⟨⟨2, ![a, c]⟩, x⟩, ⟨⟨2, ![b, c]⟩, y⟩] h (ix2 r j) = y (ix2 i j) :=
  concatenate_pair_apply_right 0 x y h (ix2 r j) rfl rfl (ix2 i j)
    (fun d hd => match d, hd with
      | ⟨0, _⟩, hd => (hd (Fin.ext rfl)).elim
      | ⟨1, _⟩, _ => rfl) hi

/-- Two blocks of columns, read at a column of the left block. -/
theorem cols_left {r a b t : ℕ} (x : (⟨2, ![r, a]⟩ : Shape).Idx → α) (y : (⟨2, ![r, b]⟩ : Shape).Idx → α)
    (h : Shape.Concatenates [(⟨2, ![r, a]⟩ : Shape), ⟨2, ![r, b]⟩] ⟨2, ![r, t]⟩ 1)
    (i : Fin r) (q : Fin t) (j : Fin a) (hj : j.val = q.val) :
    concatenate ⟨2, ![r, t]⟩ 1 [⟨⟨2, ![r, a]⟩, x⟩, ⟨⟨2, ![r, b]⟩, y⟩] h (ix2 i q) = x (ix2 i j) :=
  concatenate_pair_apply_left 1 x y h (ix2 i q) rfl (ix2 i j)
    (fun d => match d with | ⟨0, _⟩ => rfl | ⟨1, _⟩ => hj)

/-- Two blocks of columns, read at a column of the right block. -/
theorem cols_right {r a b t : ℕ} (x : (⟨2, ![r, a]⟩ : Shape).Idx → α) (y : (⟨2, ![r, b]⟩ : Shape).Idx → α)
    (h : Shape.Concatenates [(⟨2, ![r, a]⟩ : Shape), ⟨2, ![r, b]⟩] ⟨2, ![r, t]⟩ 1)
    (i : Fin r) (q : Fin t) (j : Fin b) (hj : j.val + a = q.val) :
    concatenate ⟨2, ![r, t]⟩ 1 [⟨⟨2, ![r, a]⟩, x⟩, ⟨⟨2, ![r, b]⟩, y⟩] h (ix2 i q) = y (ix2 i j) :=
  concatenate_pair_apply_right 1 x y h (ix2 i q) rfl rfl (ix2 i j)
    (fun d hd => match d, hd with
      | ⟨0, _⟩, _ => rfl
      | ⟨1, _⟩, hd => (hd (Fin.ext rfl)).elim) hj

end Cert.LibConcat2
-- ==== Proof.LibConcat3.lean ====
/-
  A matrix assembled from three pieces of equal shape set side by side, read at an entry.

  Three `[r, a]` matrices concatenated along their columns into `[r, t]` (so `t = 3a`), read at row `i` and
  column `q`: the first piece at column `q` when `q < a` (`cols3_fst`), the second at column `q - a` when
  `a ≤ q < 2a` (`cols3_snd`), the third at column `q - 2a` otherwise (`cols3_thd`). The caller names the piece's
  own column `j` and the one equation that places it. Generic in the extents and in the entries' type: what
  `jnp.concatenate([x, y, z], axis=-1)` of three equal-width blocks prints, read one entry at a time.
-/
import Idealize.ShloMosaic.Lib.Pipeline.Value
import Idealize.ShloMosaic.Lib.ValueIdx

namespace Cert.LibConcat3

open Idealize.ShloMosaic Idealize.ShloMosaic.ValueIdx

variable {α : Type}

/-- Three matrices side by side, read at a column of the first. -/
theorem cols3_fst {r a t : ℕ} (x0 x1 x2 : (⟨2, ![r, a]⟩ : Shape).Idx → α)
    (h : Shape.Concatenates [(⟨2, ![r, a]⟩ : Shape), ⟨2, ![r, a]⟩, ⟨2, ![r, a]⟩] ⟨2, ![r, t]⟩ 1)
    (i : Fin r) (q : Fin t) (j : Fin a) (hj : j.val = q.val) :
    concatenate ⟨2, ![r, t]⟩ 1 [⟨⟨2, ![r, a]⟩, x0⟩, ⟨⟨2, ![r, a]⟩, x1⟩, ⟨⟨2, ![r, a]⟩, x2⟩] h (ix2 i q) = x0 (ix2 i j) :=
  concatenate_apply_piece (t := ⟨2, ![r, t]⟩) 1 [⟨⟨2, ![r, a]⟩, x0⟩, ⟨⟨2, ![r, a]⟩, x1⟩, ⟨⟨2, ![r, a]⟩, x2⟩] h (ix2 i q) 0 (by show 0 < 3; omega) ⟨2, ![r, a]⟩ x0 rfl rfl 0 rfl (ix2 i j)
    (fun d hd => match d, hd with
      | ⟨0, _⟩, _ => rfl
      | ⟨1, _⟩, hd => (hd (Fin.ext rfl)).elim)
    (by show 0 + j.val = q.val; omega)

/-- Three matrices side by side, read at a column of the second: its own column is the column less one block's width. -/
theorem cols3_snd {r a t : ℕ} (x0 x1 x2 : (⟨2, ![r, a]⟩ : Shape).Idx → α)
    (h : Shape.Concatenates [(⟨2, ![r, a]⟩ : Shape), ⟨2, ![r, a]⟩, ⟨2, ![r, a]⟩] ⟨2, ![r, t]⟩ 1)
    (i : Fin r) (q : Fin t) (j : Fin a) (hj : a + j.val = q.val) :
    concatenate ⟨2, ![r, t]⟩ 1 [⟨⟨2, ![r, a]⟩, x0⟩, ⟨⟨2, ![r, a]⟩, x1⟩, ⟨⟨2, ![r, a]⟩, x2⟩] h (ix2 i q) = x1 (ix2 i j) :=
  concatenate_apply_piece (t := ⟨2, ![r, t]⟩) 1 [⟨⟨2, ![r, a]⟩, x0⟩, ⟨⟨2, ![r, a]⟩, x1⟩, ⟨⟨2, ![r, a]⟩, x2⟩] h (ix2 i q) 1 (by show 1 < 3; omega) ⟨2, ![r, a]⟩ x1 rfl rfl a (by simp) (ix2 i j)
    (fun d hd => match d, hd with
      | ⟨0, _⟩, _ => rfl
      | ⟨1, _⟩, hd => (hd (Fin.ext rfl)).elim)
    hj

/-- Three matrices side by side, read at a column of the third: its own column is the column less two blocks' width. -/
theorem cols3_thd {r a t : ℕ} (x0 x1 x2 : (⟨2, ![r, a]⟩ : Shape).Idx → α)
    (h : Shape.Concatenates [(⟨2, ![r, a]⟩ : Shape), ⟨2, ![r, a]⟩, ⟨2, ![r, a]⟩] ⟨2, ![r, t]⟩ 1)
    (i : Fin r) (q : Fin t) (j : Fin a) (hj : a + a + j.val = q.val) :
    concatenate ⟨2, ![r, t]⟩ 1 [⟨⟨2, ![r, a]⟩, x0⟩, ⟨⟨2, ![r, a]⟩, x1⟩, ⟨⟨2, ![r, a]⟩, x2⟩] h (ix2 i q) = x2 (ix2 i j) :=
  concatenate_apply_piece (t := ⟨2, ![r, t]⟩) 1 [⟨⟨2, ![r, a]⟩, x0⟩, ⟨⟨2, ![r, a]⟩, x1⟩, ⟨⟨2, ![r, a]⟩, x2⟩] h (ix2 i q) 2 (by show 2 < 3; omega) ⟨2, ![r, a]⟩ x2 rfl rfl (a + a) (by simp) (ix2 i j)
    (fun d hd => match d, hd with
      | ⟨0, _⟩, _ => rfl
      | ⟨1, _⟩, hd => (hd (Fin.ext rfl)).elim)
    hj

end Cert.LibConcat3
-- ==== Proof.SumBlocks.lean ====
/-
  Two laws of finite sums, in any commutative additive monoid.

  A sum over `512 = 256 + 256` positions is the sum over the first 256 plus the sum over the last 256, and a sum over
  `768 = 256 + 256 + 256` positions is the three block sums added left to right. Nothing is asked of the summands: on
  the extended reals addition is commutative and associative at the infinities too, so this re-groups a contraction over
  a joined axis into the contractions over its pieces whatever the values are. The two re-bracketings used beside them
  (`a + (b + c) = (a + b) + c` and its four-term form) are associativity alone.
-/
import Mathlib.Algebra.BigOperators.Fin

open scoped BigOperators

namespace Cert.SumBlocks

variable {M : Type*} [AddCommMonoid M]

/-- A sum over 512 positions, in two blocks of 256. -/
theorem sum_512 (f : Fin 512 → M) :
    ∑ k, f k = ∑ k : Fin 256, f ⟨k.val, by omega⟩ + ∑ k : Fin 256, f ⟨256 + k.val, by omega⟩ :=
  Fin.sum_univ_add (a := 256) (b := 256) f

/-- A sum over 768 positions, in three blocks of 256, added left to right. -/
theorem sum_768 (f : Fin 768 → M) :
    ∑ k, f k = (∑ k : Fin 256, f ⟨k.val, by omega⟩ + ∑ k : Fin 256, f ⟨256 + k.val, by omega⟩)
      + ∑ k : Fin 256, f ⟨512 + k.val, by omega⟩ :=
  (Fin.sum_univ_add (a := 512) (b := 256) f).trans
    (congrArg (· + ∑ k : Fin 256, f ⟨512 + k.val, by omega⟩) (sum_512 fun k => f ⟨k.val, by omega⟩))

/-- Three terms: the right-nested sum is the left-nested one. -/
theorem assoc3 (a b c : M) : a + (b + c) = (a + b) + c := (add_assoc a b c).symm

/-- Four terms: a first term plus a left-nested sum of three is the left-nested sum of four. -/
theorem assoc4 (a b c d : M) : a + ((b + c) + d) = ((a + b) + c) + d := by
  rw [← add_assoc, ← add_assoc]

end Cert.SumBlocks
-- ==== Proof.RefValue.lean ====
/-
  The reference program's result, read at an entry.

  The reference joins the three per-atom maps `y₀ y₁ y₂` side by side into a `[131072, 768]` array and contracts it with
  the transposed `[256, 768]` weight; it joins the two per-domain maps side by side into a `[16384, 512]` array and
  contracts it with the transposed `[256, 512]` weight. An entry of a joined array is an entry of the piece its column
  falls in, so a contraction over the joined axis is the sum of the contractions over the pieces' columns, each against
  the weight's columns `k`, `256 + k`, `512 + k` (a sum taken block by block). A transposed weight read at `(k, q)` is
  the weight at `(q, k)`. Written that way:
    invariant maps `(d, q)`:  `Σₖ x̄(d,k)·Wₗ(q,k) + (Σₖ s₀(d,k)·W(q,k) + Σₖ s₁(d,k)·W(q,256+k))`
    result `(n, q)`:  `(Σₖ x(n,k)·Wᵢ(q,k) + ((Σₖ y₀(n,k)·T(q,k) + Σₖ y₁(n,k)·T(q,256+k)) + Σₖ y₂(n,k)·T(q,512+k))) + gathered(n,q)`
  where the gathered term is the reference's own gather of the invariant maps, left as it is.
-/
import proofs.«148673_j10986526343793_1_alg».proof.Proof.Gen.ReferenceIdeal.Read
import proofs.«148673_j10986526343793_1_alg».proof.Proof.LibConcat2
import proofs.«148673_j10986526343793_1_alg».proof.Proof.LibConcat3
import proofs.«148673_j10986526343793_1_alg».proof.Proof.SumBlocks
import Idealize.ShloMosaic.Lib.ValueIdx
import Idealize.ShloMosaic.PureOps.Ideal.Laws

set_option maxRecDepth 16384

noncomputable section

open scoped BigOperators

namespace Cert.ReferenceIdeal.RefValue

open Idealize.ShloMosaic Idealize.ShloMosaic.ValueIdx
open Cert.ReferenceIdeal Cert.ReferenceIdeal.Read

variable (x0 : (⟨S131072x256, .f32⟩ : BufTy).Contents (Elt Ideal)) (x1 : (⟨S131072, .i32⟩ : BufTy).Contents (Elt Ideal)) (x2 : (⟨S2x262144, .i32⟩ : BufTy).Contents (Elt Ideal))
  (x3 : (⟨S262144, .i32⟩ : BufTy).Contents (Elt Ideal)) (x4 : (⟨S2x65536, .i32⟩ : BufTy).Contents (Elt Ideal)) (x5 : (⟨S256x768, .f32⟩ : BufTy).Contents (Elt Ideal))
  (x6 : (⟨S256x512, .f32⟩ : BufTy).Contents (Elt Ideal)) (x7 x8 : (⟨S256x256, .f32⟩ : BufTy).Contents (Elt Ideal))

/-! ## The joined arrays at a column of each piece -/

theorem joined2_left (d : Fin 16384) (k : Fin 256) :
    val_main_v68 (F := Ideal) x0 x1 x2 x3 x4 (ix2 d (⟨k.val, by omega⟩ : Fin 512)) = val_main_v62 (F := Ideal) x0 x2 x3 x4 (ix2 d k) := by
  unfold val_main_v68
  exact Cert.LibConcat2.cols_left _ _ _ d _ k rfl

theorem joined2_right (d : Fin 16384) (k : Fin 256) :
    val_main_v68 (F := Ideal) x0 x1 x2 x3 x4 (ix2 d (⟨256 + k.val, by omega⟩ : Fin 512)) = val_main_v67 (F := Ideal) x0 x1 x4 (ix2 d k) := by
  unfold val_main_v68
  exact Cert.LibConcat2.cols_right _ _ _ d _ k (Nat.add_comm _ _)

theorem joined3_fst (n : Fin 131072) (k : Fin 256) :
    val_main_v57 (F := Ideal) x0 x1 x2 x3 x4 (ix2 n (⟨k.val, by omega⟩ : Fin 768)) = val_main_v36 (F := Ideal) x0 x2 (ix2 n k) := by
  unfold val_main_v57
  exact Cert.LibConcat3.cols3_fst _ _ _ _ n _ k rfl

theorem joined3_snd (n : Fin 131072) (k : Fin 256) :
    val_main_v57 (F := Ideal) x0 x1 x2 x3 x4 (ix2 n (⟨256 + k.val, by omega⟩ : Fin 768)) = val_main_v46 (F := Ideal) x0 x2 x3 (ix2 n k) := by
  unfold val_main_v57
  exact Cert.LibConcat3.cols3_snd _ _ _ _ n _ k rfl

theorem joined3_thd (n : Fin 131072) (k : Fin 256) :
    val_main_v57 (F := Ideal) x0 x1 x2 x3 x4 (ix2 n (⟨512 + k.val, by omega⟩ : Fin 768)) = val_main_v56 (F := Ideal) x0 x1 x2 x3 x4 (ix2 n k) := by
  unfold val_main_v57
  exact Cert.LibConcat3.cols3_thd _ _ _ _ n _ k rfl

/-! ## The index maps of the contractions, by coordinates -/

theorem l70 (d : Fin 16384) (q k : Fin 256) : lidx_main_v70 (ix2 d q) k = ix2 d k :=
  funext fun a => match a with | ⟨0, _⟩ => rfl | ⟨1, _⟩ => rfl
theorem r70 (d : Fin 16384) (q k : Fin 256) : idx_main_v69 (ridx_main_v70 (ix2 d q) k) = ix2 q k :=
  funext fun a => match a with | ⟨0, _⟩ => rfl | ⟨1, _⟩ => rfl
theorem l72 (d : Fin 16384) (q : Fin 256) (k : Fin 512) : lidx_main_v72 (ix2 d q) k = ix2 d k :=
  funext fun a => match a with | ⟨0, _⟩ => rfl | ⟨1, _⟩ => rfl
theorem r72 (d : Fin 16384) (q : Fin 256) (k : Fin 512) : idx_main_v71 (ridx_main_v72 (ix2 d q) k) = ix2 q k :=
  funext fun a => match a with | ⟨0, _⟩ => rfl | ⟨1, _⟩ => rfl
theorem l75 (n : Fin 131072) (q k : Fin 256) : lidx_main_v75 (ix2 n q) k = ix2 n k :=
  funext fun a => match a with | ⟨0, _⟩ => rfl | ⟨1, _⟩ => rfl
theorem r75 (n : Fin 131072) (q k : Fin 256) : idx_main_v74 (ridx_main_v75 (ix2 n q) k) = ix2 q k :=
  funext fun a => match a with | ⟨0, _⟩ => rfl | ⟨1, _⟩ => rfl
theorem l77 (n : Fin 131072) (q : Fin 256) (k : Fin 768) : lidx_main_v77 (ix2 n q) k = ix2 n k :=
  funext fun a => match a with | ⟨0, _⟩ => rfl | ⟨1, _⟩ => rfl
theorem r77 (n : Fin 131072) (q : Fin 256) (k : Fin 768) : idx_main_v76 (ridx_main_v77 (ix2 n q) k) = ix2 q k :=
  funext fun a => match a with | ⟨0, _⟩ => rfl | ⟨1, _⟩ => rfl

/-! ## The two projections at an entry -/

/-- The reference's invariant maps at `(d, q)`. -/
theorem inv_apply (d : Fin 16384) (q : Fin 256) :
    val_main_v73 (F := Ideal) x0 x1 x2 x3 x4 x6 x7 (ix2 d q)
      = (∑ k : Fin 256, val_main_v24 (F := Ideal) x0 x1 (ix2 d k) * x7 (ix2 q k))
        + ((∑ k : Fin 256, val_main_v62 (F := Ideal) x0 x2 x3 x4 (ix2 d k) * x6 (ix2 q (⟨k.val, by omega⟩ : Fin 512)))
          + ∑ k : Fin 256, val_main_v67 (F := Ideal) x0 x1 x4 (ix2 d k) * x6 (ix2 q (⟨256 + k.val, by omega⟩ : Fin 512))) := by
  rw [val_main_v73_apply, Ideal.addf_def, val_main_v70_apply, val_main_v72_apply, Cert.SumBlocks.sum_512]
  refine congrArg₂ (· + ·) (Finset.sum_congr rfl fun k _ => ?_)
    (congrArg₂ (· + ·) (Finset.sum_congr rfl fun k _ => ?_) (Finset.sum_congr rfl fun k _ => ?_))
  · rw [val_main_v69_apply, l70, r70]
  · rw [val_main_v71_apply, l72, r72, joined2_left]
  · rw [val_main_v71_apply, l72, r72, joined2_right]

/-- The reference's result at `(n, q)`, its gathered term left as it is. -/
theorem out_apply (n : Fin 131072) (q : Fin 256) :
    val_main_v86 (F := Ideal) x0 x1 x2 x3 x4 x5 x6 x7 x8 (ix2 n q)
      = ((∑ k : Fin 256, x0 (ix2 n k) * x8 (ix2 q k))
          + (((∑ k : Fin 256, val_main_v36 (F := Ideal) x0 x2 (ix2 n k) * x5 (ix2 q (⟨k.val, by omega⟩ : Fin 768)))
              + ∑ k : Fin 256, val_main_v46 (F := Ideal) x0 x2 x3 (ix2 n k) * x5 (ix2 q (⟨256 + k.val, by omega⟩ : Fin 768)))
            + ∑ k : Fin 256, val_main_v56 (F := Ideal) x0 x1 x2 x3 x4 (ix2 n k) * x5 (ix2 q (⟨512 + k.val, by omega⟩ : Fin 768))))
        + val_main_v85 (F := Ideal) x0 x1 x2 x3 x4 x6 x7 (ix2 n q) := by
  rw [val_main_v86_apply, Ideal.addf_def, val_main_v78_apply, Ideal.addf_def, val_main_v75_apply, val_main_v77_apply,
    Cert.SumBlocks.sum_768]
  refine congrArg₂ (· + ·) (congrArg₂ (· + ·) (Finset.sum_congr rfl fun k _ => ?_)
    (congrArg₂ (· + ·) (congrArg₂ (· + ·) (Finset.sum_congr rfl fun k _ => ?_) (Finset.sum_congr rfl fun k _ => ?_))
      (Finset.sum_congr rfl fun k _ => ?_))) rfl
  · rw [val_main_v74_apply, l75, r75]
  · rw [val_main_v76_apply, l77, r77, joined3_fst]
  · rw [val_main_v76_apply, l77, r77, joined3_snd]
  · rw [val_main_v76_apply, l77, r77, joined3_thd]

end Cert.ReferenceIdeal.RefValue

end
-- ==== Proof.Bridge.lean ====
/-
  The idealized kernel program's result is the reference's result, entry by entry.

  Both programs prepare the same arrays from the same arguments: the per-domain mean `x̄`, the two per-domain sums `s₀ s₁`,
  the three per-atom maps `y₀ y₁ y₂`, and the atoms' domain indices. From them, over the extended reals:

    kernel, invariant maps `(d, q)`:    `(Σₖ x̄(d,k)·Wₗ(q,k) + Σₖ s₀(d,k)·W(q,k)) + Σₖ s₁(d,k)·W(q,256+k)`
    reference, invariant maps `(d, q)`:  `Σₖ x̄(d,k)·Wₗ(q,k) + (Σₖ s₀(d,k)·W(q,k) + Σₖ s₁(d,k)·W(q,256+k))`

    kernel, result `(n, q)`:    `((((Σₖ x(n,k)·Wᵢ(q,k)) + Σₖ y₀(n,k)·T(q,k)) + Σₖ y₁(n,k)·T(q,256+k)) + Σₖ y₂(n,k)·T(q,512+k)) + G(n,q)`
    reference, result `(n, q)`: `(Σₖ x(n,k)·Wᵢ(q,k) + ((Σₖ y₀(n,k)·T(q,k) + Σₖ y₁(n,k)·T(q,256+k)) + Σₖ y₂(n,k)·T(q,512+k))) + G(n,q)`

  where `G` is the gather of the invariant maps at the same indices with the same dimension numbers. The two bracketings of
  each line are equal by associativity of addition alone, which holds on the extended reals at the infinities too: no
  finiteness of the inputs is used. The invariant maps being equal as whole arrays, the two gathers are the same function
  applied to the same array.
-/
import proofs.«148673_j10986526343793_1_alg».proof.Proof.Gen.KernelIdeal.Frame
import proofs.«148673_j10986526343793_1_alg».proof.Proof.Region0
import proofs.«148673_j10986526343793_1_alg».proof.Proof.Region1
import proofs.«148673_j10986526343793_1_alg».proof.Proof.HostA
import proofs.«148673_j10986526343793_1_alg».proof.Proof.HostB
import proofs.«148673_j10986526343793_1_alg».proof.Proof.HostC
import proofs.«148673_j10986526343793_1_alg».proof.Proof.RefValue
import proofs.«148673_j10986526343793_1_alg».proof.Proof.SumBlocks
import Idealize.ShloMosaic.Lib.ValueIdx

set_option maxRecDepth 16384

noncomputable section

open scoped BigOperators

namespace Cert.Bridge

open Idealize.ShloMosaic Idealize.ShloMosaic.TcCoe Idealize.ShloMosaic.ValueIdx Idealize.SL.Sem
open Cert.KernelIdeal Cert.KernelIdeal.Gen
open Cert.KernelIdeal.Region0 (invArr invArr_ix2 invEntry)
open Cert.KernelIdeal.Region1 (outArr outArr_ix2 outEntry)

variable (m : (ℓ : Loc nD τ sig) → Buf (Elt Ideal) ℓ) (ρ : Dev nD → PrngReg)

/-- The kernel's invariant maps are the reference's, as whole arrays. -/
theorem inv_eq (c : Dev nD) :
    invArr (Cert.ReferenceIdeal.Read.val_main_v24 (F := Ideal) (m ((c.tc : Thread nD τ).loc main_arg0)) (m ((c.tc : Thread nD τ).loc main_arg1))) (Cert.ReferenceIdeal.Read.val_main_v62 (F := Ideal) (m ((c.tc : Thread nD τ).loc main_arg0)) (m ((c.tc : Thread nD τ).loc main_arg2)) (m ((c.tc : Thread nD τ).loc main_arg3)) (m ((c.tc : Thread nD τ).loc main_arg4))) (Cert.ReferenceIdeal.Read.val_main_v67 (F := Ideal) (m ((c.tc : Thread nD τ).loc main_arg0)) (m ((c.tc : Thread nD τ).loc main_arg1)) (m ((c.tc : Thread nD τ).loc main_arg4))) (W1 (F := Ideal) m ρ c (Proc.devRef .tc main_v66)) (W1 (F := Ideal) m ρ c (Proc.devRef .tc main_v69)) (W1 (F := Ideal) m ρ c (Proc.devRef .tc main_v72))
      = Cert.ReferenceIdeal.Read.val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) := by
  funext i
  obtain ⟨d, q, rfl⟩ : ∃ (d : Fin 16384) (q : Fin 256), i = ix2 d q := ⟨i 0, i 1, eq_ix2 i⟩
  rw [invArr_ix2, Cert.ReferenceIdeal.RefValue.inv_apply]
  unfold invEntry
  exact (congrArg₂ (· + ·)
      (congrArg₂ (· + ·)
        (Finset.sum_congr rfl fun k _ => congrArg₂ (· * ·) rfl (Cert.KernelIdeal.HostA.wl_apply m ρ c k q))
        (Finset.sum_congr rfl fun k _ => congrArg₂ (· * ·) rfl (Cert.KernelIdeal.HostA.wa_apply m ρ c k q)))
      (Finset.sum_congr rfl fun k _ => congrArg₂ (· * ·) rfl (Cert.KernelIdeal.HostA.wb_apply m ρ c k q))).trans
    (Cert.SumBlocks.assoc3 _ _ _).symm

/-- THE RESULT ARRAY of the idealized kernel program — the last segment boundary's contents of the result buffer — is the
    reference's result stage of the arguments. -/
theorem kernel_value (c : Dev nD) :
    (W4 (F := Ideal) m ρ c (Proc.devRef .tc main_v99) : S131072x256.Idx → EReal)
      = Cert.ReferenceIdeal.Read.val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have h : W4 (F := Ideal) m ρ c (Proc.devRef .tc main_v99) = (dat1 (F := Ideal) (V3 m ρ) c).arrAt 9 cfg1.N := W4_arr m ρ c 9
  rw [h, Cert.KernelIdeal.Region1.final (V3 m ρ) c]
  show outArr (W3 (F := Ideal) m ρ c (Proc.devRef .tc main_v95)) (W3 (F := Ideal) m ρ c (Proc.devRef .tc main_v96)) (W3 (F := Ideal) m ρ c (Proc.devRef .tc main_v97)) (W3 (F := Ideal) m ρ c (Proc.devRef .tc main_v98)) (W3 (F := Ideal) m ρ c (Proc.devRef .tc main_v94))
      (W3 (F := Ideal) m ρ c (Proc.devRef .tc main_v74)) (W3 (F := Ideal) m ρ c (Proc.devRef .tc main_v77)) (W3 (F := Ideal) m ρ c (Proc.devRef .tc main_v80)) (W3 (F := Ideal) m ρ c (Proc.devRef .tc main_v83)) = _
  rw [Cert.KernelIdeal.HostC.x m ρ c, Cert.KernelIdeal.HostC.y0 m ρ c, Cert.KernelIdeal.HostC.y1 m ρ c, Cert.KernelIdeal.HostC.y2 m ρ c, Cert.KernelIdeal.HostC.g m ρ c, Cert.KernelIdeal.HostC.wi m ρ c, Cert.KernelIdeal.HostC.t0 m ρ c,
    Cert.KernelIdeal.HostC.t1 m ρ c, Cert.KernelIdeal.HostC.t2 m ρ c, inv_eq m ρ c]
  funext i
  obtain ⟨n, q, rfl⟩ : ∃ (n : Fin 131072) (q : Fin 256), i = ix2 n q := ⟨i 0, i 1, eq_ix2 i⟩
  rw [outArr_ix2, Cert.ReferenceIdeal.RefValue.out_apply]
  unfold outEntry
  refine congrArg₂ (· + ·) ?_ rfl
  exact (congrArg₂ (· + ·)
      (congrArg₂ (· + ·)
        (congrArg₂ (· + ·)
          (Finset.sum_congr rfl fun k _ => congrArg₂ (fun a b : EReal => a * b) rfl (Cert.KernelIdeal.HostB.wi_apply m ρ c k q))
          (Finset.sum_congr rfl fun k _ => congrArg₂ (fun a b : EReal => a * b) rfl (Cert.KernelIdeal.HostB.t0_apply m ρ c k q)))
        (Finset.sum_congr rfl fun k _ => congrArg₂ (fun a b : EReal => a * b) rfl (Cert.KernelIdeal.HostB.t1_apply m ρ c k q)))
      (Finset.sum_congr rfl fun k _ => congrArg₂ (fun a b : EReal => a * b) rfl (Cert.KernelIdeal.HostB.t2_apply m ρ c k q))).trans
    (Cert.SumBlocks.assoc4 _ _ _ _).symm

end Cert.Bridge

end
-- ==== Proof.lean ====
/-
  The certificate: the kernel program (two pipelined matrix-product regions among host gathers and segment sums) against
  its reference, over the extended reals.

  Frames. The kernel program as printed and its idealization each terminate without a fault with their arguments
  unchanged: the frame of the two-region program. The reference is a straight line of host operations; its run gives the
  same.
  Idealization. The ideal pass rewrote no operation, so there is nothing to preserve.
  Equivalence. The idealized kernel's result array ends at the reference's result stage of the arguments: both programs
  prepare the same per-domain and per-atom arrays by the same host operations; the kernel then adds its 256-wide
  contractions one by one where the reference contracts the joined 512- and 768-wide arrays once, and a sum over a joined
  axis is the sum of the sums over its pieces, re-bracketed by associativity alone. The reference's run ends at the same
  stage of its own arguments, which agree with the kernel's.
-/
import proofs.«148673_j10986526343793_1_alg».proof.Defs
import proofs.«148673_j10986526343793_1_alg».proof.Proof.Gen.Kernel
import proofs.«148673_j10986526343793_1_alg».proof.Proof.Gen.Kernel.Frame
import proofs.«148673_j10986526343793_1_alg».proof.Proof.Gen.KernelIdeal
import proofs.«148673_j10986526343793_1_alg».proof.Proof.Gen.KernelIdeal.Frame
import proofs.«148673_j10986526343793_1_alg».proof.Proof.Gen.ReferenceIdeal
import proofs.«148673_j10986526343793_1_alg».proof.Proof.Gen.Pre_finite_inputs
import proofs.«148673_j10986526343793_1_alg».proof.Proof.Gen.ReferenceIdeal.Run
import proofs.«148673_j10986526343793_1_alg».proof.Proof.Gen.ReferenceIdeal.Read
import proofs.«148673_j10986526343793_1_alg».proof.Proof.KernelRun
import proofs.«148673_j10986526343793_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with their results at the reference's result stage of the kernel's arguments. -/
theorem algebraic : Cert.algebraic_KernelIdeal_ReferenceIdeal := by
  intro m ρ m' ρ' _ hagree
  refine ⟨fun c => Cert.ReferenceIdeal.Read.val_main_v86 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.Bridge.kernel_value m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v86_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
